-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3300000 : Shape := ⟨1, ![3300000]⟩
abbrev S100000x64 : Shape := ⟨2, ![100000, 64]⟩
abbrev S5000x128 : Shape := ⟨2, ![5000, 128]⟩
abbrev S5000x64 : Shape := ⟨2, ![5000, 64]⟩
abbrev S3300000x1 : Shape := ⟨2, ![3300000, 1]⟩
abbrev S3300000x64 : Shape := ⟨2, ![3300000, 64]⟩
abbrev S1x64 : Shape := ⟨2, ![1, 64]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩

abbrev nBuf : Space → Nat
  | .hbm => 82
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S100000, .f32⟩
  | .hbm, ⟨40, _⟩ => ⟨S100000, .i32⟩
  | .hbm, ⟨41, _⟩ => ⟨S3300000, .i32⟩
  | .hbm, ⟨42, _⟩ => ⟨S3300000, .i32⟩
  | .hbm, ⟨43, _⟩ => ⟨S3300000, .f32⟩
  | .hbm, ⟨44, _⟩ => ⟨S100000x64, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S3300000x1, .f32⟩
  | .hbm, ⟨55, _⟩ => ⟨S3300000x64, .f32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x2, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x2, .f32⟩
  | .hbm, ⟨73, _⟩ => ⟨S3300000x1, .f32⟩
  | .hbm, ⟨74, _⟩ => ⟨S3300000x2, .f32⟩
  | .hbm, ⟨75, _⟩ => ⟨S3300000x2, .f32⟩
  | .hbm, ⟨76, _⟩ => ⟨S_, .f32⟩
  | .hbm, ⟨77, _⟩ => ⟨S100000x2, .f32⟩
  | .hbm, ⟨78, _⟩ => ⟨S3300000x1, .i32⟩
  | .hbm, ⟨79, _⟩ => ⟨S100000x2, .f32⟩
  | .hbm, ⟨80, _⟩ => ⟨S1x2, .f32⟩
  | .hbm, ⟨81, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  concatenates_S3200000_S100000_S3300000_d0 : Shape.Concatenates [S3200000, S100000] S3300000 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x2_S5000x2_1_0_0_1_n_n_wf : DotDims.WF S5000x64 S64x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S100000x2 : Shape := ⟨2, ![100000, 2]⟩
abbrev S3200000x2 : Shape := ⟨2, ![3200000, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S3200000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x64, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x64, .f32⟩
  | .hbm, ⟨52, _⟩ => ⟨S3200000x1, .f32⟩
  | .hbm, ⟨53, _⟩ => ⟨S3200000x64, .f32⟩
  | .hbm, ⟨54, _⟩ => ⟨S3200000x64, .f32⟩
  | .hbm, ⟨55, _⟩ => ⟨S_, .f32⟩
  | .hbm, ⟨56, _⟩ => ⟨S100000x64, .f32⟩
  | .hbm, ⟨57, _⟩ => ⟨S3200000x1, .i32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x2, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x2, .f32⟩
  | .hbm, ⟨79, _⟩ => ⟨S3200000x1, .f32⟩
  | .hbm, ⟨80, _⟩ => ⟨S3200000x2, .f32⟩
  | .hbm, ⟨81, _⟩ => ⟨S3200000x2, .f32⟩
  | .hbm, ⟨82, _⟩ => ⟨S_, .f32⟩
  | .hbm, ⟨83, _⟩ => ⟨S100000x2, .f32⟩
  | .hbm, ⟨84, _⟩ => ⟨S3200000x1, .i32⟩
  | .hbm, ⟨85, _⟩ => ⟨S100000x2, .f32⟩
  | .hbm, ⟨86, _⟩ => ⟨S100000x1, .f32⟩
  | .hbm, ⟨87, _⟩ => ⟨S100000x2, .f32⟩
  | .hbm, ⟨88, _⟩ => ⟨S100000x2, .f32⟩
  | .hbm, ⟨89, _⟩ => ⟨S100000x2, .f32⟩
  | .hbm, ⟨90, _⟩ => ⟨S1x2, .f32⟩
  | .hbm, ⟨91, _⟩ => ⟨S100000x2, .f32⟩
  | .hbm, ⟨92, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x2_S100000x2_1_0_0_1_n_n_wf : DotDims.WF S100000x64 S64x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.LibRowIndex.lean ====
/-
  Row gathers and row scatters read at an index.

  A table of N rows and C columns is gathered by a column of n row numbers: result row e is the table's row at the
  e-th number, read signed and clamped into the table. It is scattered into the same way: update row e lands on the
  table's row at the e-th number, read signed and not clamped, and is dropped when that number is not a row.
-/
import Idealize.ShloMosaic.PureOps.Ideal
import Idealize.ShloMosaic.PureOps.ShapeOps
import Idealize.ShloMosaic.Lib.ValueIdx

noncomputable section

namespace Cert.GraphConv

open Idealize.ShloMosaic Idealize.ShloMosaic.ValueIdx

/-- An axis of a rank-2 shape is axis 0 or axis 1. -/
theorem rank2_axis_eq {N C : Nat} (a : Fin (⟨2, ![N, C]⟩ : Shape).rank) : a = 0 ∨ a = 1 := by
  match a with
  | ⟨0, _⟩ => exact Or.inl rfl
  | ⟨1, _⟩ => exact Or.inr rfl

/-- The dimension numbers of a row gather: table [N × C], row numbers [n × 1], result [n × C]; the table's axis 0 is
    collapsed and start-indexed (slice size 1), its axis 1 is the result's offset axis 1 (slice size C), the index
    vector lies on axis 1 of the row numbers, and there are no batching axes. -/
abbrev rowGatherDims (N n C : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather's operand index over the literal dimension numbers. On axis 0 the start is the row number at
    (e, 0) read signed and clamped to [0, N − 1] (slice size 1), and the batching and offset coordinates vanish; on
    axis 1 the start and the batching coordinate vanish and the offset coordinate is the result's coordinate f. -/
theorem rowGatherDims_operandIdx {N n C w : Nat} (hN : 0 < N)
    (wf : GatherDims.WF ⟨2, ![N, C]⟩ ⟨2, ![n, 1]⟩ ⟨2, ![n, C]⟩ [1] [0] [] [0] [] 1 ![1, C])
    (idx : IVec ⟨2, ![n, 1]⟩ w) (e : Fin n) (f : Fin C) :
    (rowGatherDims N n C wf).operandIdx (ix2 e f) idx
      = ix2 ⟨min (idx (ix2 e (0 : Fin 1))).toInt.toNat (N - 1), by omega⟩ f := by
  funext a
  refine Fin.ext ?_
  show (rowGatherDims N n C wf).start (ix2 e f) idx a + (rowGatherDims N n C wf).batchCoord (ix2 e f) a
    + (rowGatherDims N n C wf).offCoord (ix2 e f) a = _
  rw [GatherDims.batchCoord_eq_zero _ _ _ List.not_mem_nil, Nat.add_zero]
  rcases rank2_axis_eq a with rfl | rfl
  · -- axis 0 is collapsed, so it is not a kept axis and carries no offset coordinate
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N n C wf).startIndexMap from List.mem_singleton.mpr rfl)]
    -- the start index of result element (e, f) is read at (e, 0): e on the batch axis, component 0 on the index vector's
    have hsi : (rowGatherDims N n C wf).siIdx (ix2 e f) ⟨List.idxOf (0 : Fin 2) (rowGatherDims N n C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · -- axis 1 is not in the start index map: its start is 0, and it is the one kept axis, read by offset axis 1
    unfold GatherDims.start
    have h1 : (1 : Fin 2) ∉ (rowGatherDims N n C wf).startIndexMap := by
      show (1 : Fin 2) ∉ [(0 : Fin 2)]
      decide
    rw [dif_neg h1, Nat.zero_add]
    rfl

/-- Result element (e, f) of a row gather reads the table at row `idx[e, 0]`, signed and clamped, column f. -/
theorem takeRows_operandIdx {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (idx : IVec ⟨2, ![n, 1]⟩ w) (e : Fin n) (f : Fin C) :
    d.operandIdx (ix2 e f) idx = ix2 ⟨min (idx (ix2 e (0 : Fin 1))).toInt.toNat (N - 1), by omega⟩ f := by
  obtain ⟨od, cd, ob, sb, sm, iv, ss, wf⟩ := d
  simp only at hoff hcoll hob hsb hsim hivd hss
  subst hoff hcoll hob hsb hsim hivd hss
  exact rowGatherDims_operandIdx hN wf idx e f

/-- The dimension numbers of a row scatter: table [N × C], row numbers [n × 1], updates [n × C]; the table's axis 0
    is an inserted window axis named by the scatter-dims-to-operand-dims map, its axis 1 receives the updates' window
    axis 1, and the index vector lies on axis 1 of the row numbers. -/
abbrev rowScatterDims (N n C : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The row scatter's result index over the literal dimension numbers. On axis 0 the start is the row number at
    (e, 0) read signed and the window coordinate is 0; on axis 1 the start is 0 and the window coordinate is f. So the
    update lands inside the table exactly when that row number is a row, and then at (that row, f). -/
theorem rowScatterDims_resultIdx?_eq_some_iff {N n C w : Nat}
    (wf : ScatterDims.WF ⟨2, ![N, C]⟩ ⟨2, ![n, 1]⟩ ⟨2, ![n, C]⟩ [1] [0] [0] 1)
    (idx : IVec ⟨2, ![n, 1]⟩ w) (e : Fin n) (f : Fin C) (i : (⟨2, ![N, C]⟩ : Shape).Idx) :
    (rowScatterDims N n C wf).resultIdx? (ix2 e f) idx = some i
      ↔ (idx (ix2 e (0 : Fin 1))).toInt = ((i 0).val : Int) ∧ f.val = (i 1).val := by
  -- the four coordinates of the landing position
  have hs0 : (rowScatterDims N n C wf).start (ix2 e f) idx 0 = (idx (ix2 e (0 : Fin 1))).toInt := by
    unfold ScatterDims.start
    rw [dif_pos (show (0 : Fin 2) ∈ (rowScatterDims N n C wf).scatterDimsToOperandDims from List.mem_singleton.mpr rfl)]
    have hsi : (rowScatterDims N n C wf).siIdx (ix2 e f)
        ⟨List.idxOf (0 : Fin 2) (rowScatterDims N n C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N n C wf).start (ix2 e f) idx 1 = 0 := by
    unfold ScatterDims.start
    have h1 : (1 : Fin 2) ∉ (rowScatterDims N n C wf).scatterDimsToOperandDims := by
      show (1 : Fin 2) ∉ [(0 : Fin 2)]
      decide
    rw [dif_neg h1]
  have hw0 : (rowScatterDims N n C wf).window (ix2 e f) 0 = 0 := by
    unfold ScatterDims.window
    have h0 : (0 : Fin 2) ∉ (rowScatterDims N n C wf).sKept := by
      show (0 : Fin 2) ∉ [(1 : Fin 2)]
      decide
    rw [dif_neg h0]
  have hw1 : (rowScatterDims N n C wf).window (ix2 e f) 1 = f.val := by
    unfold ScatterDims.window
    have h1 : (1 : Fin 2) ∈ (rowScatterDims N n C wf).sKept := by
      show (1 : Fin 2) ∈ [(1 : Fin 2)]
      decide
    rw [dif_pos h1]
    rfl
  have hi0 : (i 0).val < N := (i 0).isLt
  have hi1 : (i 1).val < C := (i 1).isLt
  have hf : f.val < C := f.isLt
  unfold ScatterDims.resultIdx?
  constructor
  · -- a landing position i: read its two coordinates off the equation
    intro h
    split at h
    · rename_i hall
      have hi := Option.some.inj h
      have h0 : ((rowScatterDims N n C wf).start (ix2 e f) idx 0
          + ((rowScatterDims N n C wf).window (ix2 e f) 0 : Int)).toNat = (i 0).val := congrArg (fun k => (k 0).val) hi
      have h1 : ((rowScatterDims N n C wf).start (ix2 e f) idx 1
          + ((rowScatterDims N n C wf).window (ix2 e f) 1 : Int)).toNat = (i 1).val := congrArg (fun k => (k 1).val) hi
      have ha0 := (hall 0).1
      rw [hs0, hw0] at ha0 h0
      rw [hs1, hw1] at h1
      constructor <;> omega
    · exact absurd h (by simp)
  · -- conversely the position is inside the table on both axes, and its coordinates are i's
    rintro ⟨h0, h1⟩
    have hall : ∀ a, 0 ≤ (rowScatterDims N n C wf).start (ix2 e f) idx a + ((rowScatterDims N n C wf).window (ix2 e f) a : Int)
        ∧ (rowScatterDims N n C wf).start (ix2 e f) idx a + ((rowScatterDims N n C wf).window (ix2 e f) a : Int)
          < (((⟨2, ![N, C]⟩ : Shape).size a : Nat) : Int) := by
      intro a
      rcases rank2_axis_eq a with rfl | rfl
      · rw [hs0, hw0, h0]
        show (0 : Int) ≤ ((i 0).val : Int) + ((0 : Nat) : Int) ∧ ((i 0).val : Int) + ((0 : Nat) : Int) < ((N : Nat) : Int)
        omega
      · rw [hs1, hw1]
        show (0 : Int) ≤ 0 + (f.val : Int) ∧ 0 + (f.val : Int) < ((C : Nat) : Int)
        omega
    rw [dif_pos hall]
    congr 1
    funext a
    refine Fin.ext ?_
    rcases rank2_axis_eq a with rfl | rfl
    · show ((rowScatterDims N n C wf).start (ix2 e f) idx 0
          + ((rowScatterDims N n C wf).window (ix2 e f) 0 : Int)).toNat = (i 0).val
      rw [hs0, hw0, h0]
      omega
    · show ((rowScatterDims N n C wf).start (ix2 e f) idx 1
          + ((rowScatterDims N n C wf).window (ix2 e f) 1 : Int)).toNat = (i 1).val
      rw [hs1, hw1]
      omega

/-- Update element (e, f) of a row scatter lands on table element i exactly when `idx[e, 0]`, read signed, is i's
    row and f is i's column. -/
theorem rowScatter_resultIdx?_eq_some_iff {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (f : Fin C) (i : (⟨2, ![N, C]⟩ : Shape).Idx) :
    d.resultIdx? (ix2 e f) idx = some i ↔ (idx (ix2 e (0 : Fin 1))).toInt = ((i 0).val : Int) ∧ f.val = (i 1).val := by
  obtain ⟨uw, iw, sd, iv, wf⟩ := d
  simp only at huw hiw hsd hivd
  subst huw hiw hsd hivd
  exact rowScatterDims_resultIdx?_eq_some_iff wf idx e f i

end Cert.GraphConv

end
-- ==== Proof.Layer.lean ====
/-
  A graph-convolution layer with the self loops appended to the edge list.

  The edge list (E = 3200000 edges, source and destination node per edge, a weight per edge) is extended by one
  self edge per node (N = 100000 nodes: source = destination = the node, weight the node's self weight). Gathering
  the rows of a table H along the extended sources, scaling each gathered row by its weight and summing the rows
  by destination is the same as doing so along the original edges and then adding, to every row of the result,
  that row of H scaled by the node's self weight: a sum over the extended list is the sum over the edges plus the
  sum over the self edges, and the self edges landing on node i are exactly the self edge of i.
-/
import proofs.«138761_j19645180412674_1_alg».proof.Proof.LibRowIndex
import Idealize.ShloMosaic.PureOps.Contract
import Idealize.ShloMosaic.PureOps.Vector
import Idealize.ShloMosaic.Lib.Pipeline.Value

noncomputable section

namespace Cert.GraphConv

open Idealize.ShloMosaic Idealize.ShloMosaic.ValueIdx

/-- The source numbers as the gather takes them: a negative number has the table's height added. -/
abbrev wrapIdx {n : Nat} (hs : (⟨0, ![]⟩ : Shape).BroadcastsInDim ⟨1, ![n]⟩ (![] : Fin 0 → Fin 1))
    (a : IVec ⟨1, ![n]⟩ 32) : IVec ⟨1, ![n]⟩ 32 :=
  select (cmpi .slt a (broadcastInDim ⟨1, ![n]⟩ ![] hs (constantI ⟨0, ![]⟩ 32 0#32)))
    (addi a (broadcastInDim ⟨1, ![n]⟩ ![] hs (constantI ⟨0, ![]⟩ 32 100000#32))) a

/-- A vector as an [n × 1] column reads, at (e, 0), the vector at e. -/
private theorem bcol_apply {α : Type} {n : Nat} (h : (⟨1, ![n]⟩ : Shape).BroadcastsInDim ⟨2, ![n, 1]⟩ (![0] : Fin 1 → Fin 2))
    (v : (⟨1, ![n]⟩ : Shape).Idx → α) (e : Fin n) :
    broadcastInDim ⟨2, ![n, 1]⟩ ![0] h v (ix2 e (0 : Fin 1)) = v (ix1 e) := by
  simp only [broadcastInDim]
  congr 1
  funext a
  have ha : a = 0 := Subsingleton.elim _ _
  subst ha
  apply Fin.ext
  have hp := e.isLt
  split
  · next h1 => change n = 1 at h1; show (0 : Nat) = e.val; omega
  · rfl

/-- A vector laid along the rows of an [n × C] rectangle reads, at (e, f), the vector at e. -/
private theorem brow_apply {α : Type} {n C : Nat} (h₁ : (⟨1, ![n]⟩ : Shape).BroadcastsInDim ⟨2, ![n, 1]⟩ (![0] : Fin 1 → Fin 2))
    (h₂ : (⟨2, ![n, 1]⟩ : Shape).BroadcastsInDim ⟨2, ![n, C]⟩ (![0, 1] : Fin 2 → Fin 2))
    (v : (⟨1, ![n]⟩ : Shape).Idx → α) (e : Fin n) (f : Fin C) :
    broadcastInDim ⟨2, ![n, C]⟩ ![0, 1] h₂ (broadcastInDim ⟨2, ![n, 1]⟩ ![0] h₁ v) (ix2 e f) = v (ix1 e) := by
  simp only [broadcastInDim]
  congr 1
  funext a
  have ha : a = 0 := Subsingleton.elim _ _
  subst ha
  apply Fin.ext
  have hp := e.isLt
  split
  · next h1 => change n = 1 at h1; show (0 : Nat) = e.val; omega
  · split
    · next h2 => change n = 1 at h2; show (0 : Nat) = e.val; omega
    · rfl

/-- The wrapped source number at a position: a negative number has 100000 added. -/
private theorem wrapIdx_apply {n : Nat} (hs : (⟨0, ![]⟩ : Shape).BroadcastsInDim ⟨1, ![n]⟩ (![] : Fin 0 → Fin 1))
    (a : IVec ⟨1, ![n]⟩ 32) (j : (⟨1, ![n]⟩ : Shape).Idx) :
    wrapIdx hs a j = if (a j).slt 0#32 then a j + 100000#32 else a j := by
  show Scalar.select (IntOp.cmpi .slt (a j) 0#32) (IntOp.addi (a j) 100000#32) (a j) = _
  by_cases h : (a j).slt 0#32 = true
  · have hc : IntOp.cmpi .slt (a j) 0#32 = 1#1 := by show BitVec.ofBool ((a j).slt 0#32) = 1#1; rw [h]; rfl
    rw [hc, select_one, if_pos h]; rfl
  · have hc : IntOp.cmpi .slt (a j) 0#32 = 0#1 := by
      show BitVec.ofBool ((a j).slt 0#32) = 0#1; rw [Bool.eq_false_iff.2 h]; rfl
    rw [hc, select_zero, if_neg h]

/-- The first piece of a two-piece concatenation of vectors. -/
private theorem cat_left {α : Type} {m n t : Nat} (hcat : Shape.Concatenates [(⟨1, ![m]⟩ : Shape), ⟨1, ![n]⟩] ⟨1, ![t]⟩ 0)
    (x₁ : (⟨1, ![m]⟩ : Shape).Idx → α) (x₂ : (⟨1, ![n]⟩ : Shape).Idx → α) (e : Fin m) (he : e.val < t) :
    concatenate ⟨1, ![t]⟩ 0 [⟨⟨1, ![m]⟩, x₁⟩, ⟨⟨1, ![n]⟩, x₂⟩] hcat (ix1 ⟨e.val, he⟩) = x₁ (ix1 e) :=
  concatenate_pair_apply_left 0 x₁ x₂ hcat _ rfl (ix1 e)
    (by intro b; have hb : b = 0 := Subsingleton.elim _ _; subst hb; rfl)

/-- The second piece of a two-piece concatenation of vectors. -/
private theorem cat_right {α : Type} {m n t : Nat} (hcat : Shape.Concatenates [(⟨1, ![m]⟩ : Shape), ⟨1, ![n]⟩] ⟨1, ![t]⟩ 0)
    (x₁ : (⟨1, ![m]⟩ : Shape).Idx → α) (x₂ : (⟨1, ![n]⟩ : Shape).Idx → α) (p : Fin n) (hp : m + p.val < t) :
    concatenate ⟨1, ![t]⟩ 0 [⟨⟨1, ![m]⟩, x₁⟩, ⟨⟨1, ![n]⟩, x₂⟩] hcat (ix1 ⟨m + p.val, hp⟩) = x₂ (ix1 p) :=
  concatenate_pair_apply_right 0 x₁ x₂ hcat _ rfl rfl (ix1 p)
    (by intro b hb; exact absurd (Subsingleton.elim _ _) hb)
    (by show p.val + m = m + p.val; omega)

/-- A sum over m + n positions is the sum over the first m plus the sum over the last n. -/
private theorem sum_split {M : Type*} [AddCommMonoid M] {m n t : Nat} (h : m + n = t) (g : Fin t → M) :
    ∑ a, g a = ∑ e : Fin m, g ⟨e.val, by omega⟩ + ∑ p : Fin n, g ⟨m + p.val, by omega⟩ := by
  subst h
  exact Fin.sum_univ_add g

/-- A node number, as a 32-bit word, reads signed as itself. -/
private theorem toInt_node (p : Nat) (hp : p < 100000) : (BitVec.ofNat 32 p).toInt = (p : Int) := by
  rw [BitVec.toInt_eq_toNat_cond, BitVec.toNat_ofNat, Nat.mod_eq_of_lt (by omega)]
  rw [if_pos (by omega)]

/-- A node number is not negative as a signed 32-bit word, so it is not wrapped. -/
private theorem wrap_node (p : Nat) (hp : p < 100000) :
    (if (BitVec.ofNat 32 p).slt 0#32 then BitVec.ofNat 32 p + 100000#32 else BitVec.ofNat 32 p) = BitVec.ofNat 32 p := by
  rw [if_neg]
  rw [BitVec.slt, toInt_node p hp]
  simp

/-- Update element (e, f) of a row scatter whose numbers are a column made of two pieces, e in the first piece. -/
private theorem land_cat_left {N m n t C : Nat} (d : ScatterDims ⟨2, ![N, C]⟩ ⟨2, ![t, 1]⟩ ⟨2, ![t, C]⟩)
    (hd : d.updateWindowDims = [1] ∧ d.insertedWindowDims = [0] ∧ d.scatterDimsToOperandDims = [0] ∧ d.indexVectorDim = 1)
    (b₁ : (⟨1, ![t]⟩ : Shape).BroadcastsInDim ⟨2, ![t, 1]⟩ (![0] : Fin 1 → Fin 2))
    (hcat : Shape.Concatenates [(⟨1, ![m]⟩ : Shape), ⟨1, ![n]⟩] ⟨1, ![t]⟩ 0)
    (x₁ : IVec ⟨1, ![m]⟩ 32) (x₂ : IVec ⟨1, ![n]⟩ 32) (e : Fin m) (he : e.val < t) (f : Fin C)
    (i : (⟨2, ![N, C]⟩ : Shape).Idx) :
    d.resultIdx? (ix2 ⟨e.val, he⟩ f)
        (broadcastInDim ⟨2, ![t, 1]⟩ ![0] b₁ (concatenate ⟨1, ![t]⟩ 0 [⟨⟨1, ![m]⟩, x₁⟩, ⟨⟨1, ![n]⟩, x₂⟩] hcat)) = some i
      ↔ (x₁ (ix1 e)).toInt = ((i 0).val : Int) ∧ f.val = (i 1).val := by
  rw [rowScatter_resultIdx?_eq_some_iff d hd.1 hd.2.1 hd.2.2.1 hd.2.2.2, bcol_apply, cat_left]

/-- The same, e in the second piece. -/
private theorem land_cat_right {N m n t C : Nat} (d : ScatterDims ⟨2, ![N, C]⟩ ⟨2, ![t, 1]⟩ ⟨2, ![t, C]⟩)
    (hd : d.updateWindowDims = [1] ∧ d.insertedWindowDims = [0] ∧ d.scatterDimsToOperandDims = [0] ∧ d.indexVectorDim = 1)
    (b₁ : (⟨1, ![t]⟩ : Shape).BroadcastsInDim ⟨2, ![t, 1]⟩ (![0] : Fin 1 → Fin 2))
    (hcat : Shape.Concatenates [(⟨1, ![m]⟩ : Shape), ⟨1, ![n]⟩] ⟨1, ![t]⟩ 0)
    (x₁ : IVec ⟨1, ![m]⟩ 32) (x₂ : IVec ⟨1, ![n]⟩ 32) (p : Fin n) (hp : m + p.val < t) (f : Fin C)
    (i : (⟨2, ![N, C]⟩ : Shape).Idx) :
    d.resultIdx? (ix2 ⟨m + p.val, hp⟩ f)
        (broadcastInDim ⟨2, ![t, 1]⟩ ![0] b₁ (concatenate ⟨1, ![t]⟩ 0 [⟨⟨1, ![m]⟩, x₁⟩, ⟨⟨1, ![n]⟩, x₂⟩] hcat)) = some i
      ↔ (x₂ (ix1 p)).toInt = ((i 0).val : Int) ∧ f.val = (i 1).val := by
  rw [rowScatter_resultIdx?_eq_some_iff d hd.1 hd.2.1 hd.2.2.1 hd.2.2.2, bcol_apply, cat_right]

/-- The same for a plain column of numbers. -/
private theorem land_col {N n C : Nat} (d : ScatterDims ⟨2, ![N, C]⟩ ⟨2, ![n, 1]⟩ ⟨2, ![n, C]⟩)
    (hd : d.updateWindowDims = [1] ∧ d.insertedWindowDims = [0] ∧ d.scatterDimsToOperandDims = [0] ∧ d.indexVectorDim = 1)
    (b₁ : (⟨1, ![n]⟩ : Shape).BroadcastsInDim ⟨2, ![n, 1]⟩ (![0] : Fin 1 → Fin 2))
    (x : IVec ⟨1, ![n]⟩ 32) (e : Fin n) (f : Fin C) (i : (⟨2, ![N, C]⟩ : Shape).Idx) :
    d.resultIdx? (ix2 e f) (broadcastInDim ⟨2, ![n, 1]⟩ ![0] b₁ x) = some i
      ↔ (x (ix1 e)).toInt = ((i 0).val : Int) ∧ f.val = (i 1).val := by
  rw [rowScatter_resultIdx?_eq_some_iff d hd.1 hd.2.1 hd.2.2.1 hd.2.2.2, bcol_apply]

/-- The table row a number selects: read signed and clamped into the table. -/
private def clampRow (N : Nat) (hN : 0 < N) (b : BitVec 32) : Fin N := ⟨min b.toInt.toNat (N - 1), by omega⟩

/-- Element (e, f) of the rows of a table taken along a column of numbers. -/
private theorem take_col {α : Type} {N n C : Nat} (g : GatherDims ⟨2, ![N, C]⟩ ⟨2, ![n, 1]⟩ ⟨2, ![n, C]⟩)
    (hg : g.offsetDims = [1] ∧ g.collapsedSliceDims = [0] ∧ g.operandBatchingDims = [] ∧ g.startIndicesBatchingDims = []
      ∧ g.startIndexMap = [0] ∧ g.indexVectorDim = 1 ∧ g.sliceSizes = ![1, C]) (hN : 0 < N)
    (b₁ : (⟨1, ![n]⟩ : Shape).BroadcastsInDim ⟨2, ![n, 1]⟩ (![0] : Fin 1 → Fin 2))
    (H : (⟨2, ![N, C]⟩ : Shape).Idx → α) (x : IVec ⟨1, ![n]⟩ 32) (e : Fin n) (f : Fin C) :
    Host.gather g H (broadcastInDim ⟨2, ![n, 1]⟩ ![0] b₁ x) (ix2 e f) = H (ix2 (clampRow N hN (x (ix1 e))) f) := by
  show H (g.operandIdx (ix2 e f) _) = _
  rw [takeRows_operandIdx g hg.1 hg.2.1 hg.2.2.1 hg.2.2.2.1 hg.2.2.2.2.1 hg.2.2.2.2.2.1 hg.2.2.2.2.2.2 hN]
  congr 2
  apply Fin.ext
  show min _ _ = min _ _
  rw [bcol_apply]

/-- A self edge reads its own node's row: the node number is not wrapped and not clamped. -/
private theorem self_row (p : Fin 100000) (h : 0 < 100000) :
    clampRow 100000 h
      (if (BitVec.ofNat 32 p.val).slt 0#32 then BitVec.ofNat 32 p.val + 100000#32 else BitVec.ofNat 32 p.val) = p := by
  apply Fin.ext
  show min _ _ = p.val
  rw [wrap_node p.val p.isLt, toInt_node p.val p.isLt, Int.toNat_natCast]
  have := p.isLt
  omega

/-- The numbering of the nodes at a position is the position. -/
private theorem iota_ix1 {n w : Nat} (p : Fin n) : iotaInDim (⟨1, ![n]⟩ : Shape) w 0 (ix1 p) = BitVec.ofNat w p.val := rfl

theorem augmented_layer {C : Nat}
    (dK : ScatterDims ⟨2, ![100000, C]⟩ ⟨2, ![3300000, 1]⟩ ⟨2, ![3300000, C]⟩)
    (hdK : dK.updateWindowDims = [1] ∧ dK.insertedWindowDims = [0] ∧ dK.scatterDimsToOperandDims = [0] ∧ dK.indexVectorDim = 1)
    (gK : GatherDims ⟨2, ![100000, C]⟩ ⟨2, ![3300000, 1]⟩ ⟨2, ![3300000, C]⟩)
    (hgK : gK.offsetDims = [1] ∧ gK.collapsedSliceDims = [0] ∧ gK.operandBatchingDims = [] ∧ gK.startIndicesBatchingDims = []
      ∧ gK.startIndexMap = [0] ∧ gK.indexVectorDim = 1 ∧ gK.sliceSizes = ![1, C])
    (dR : ScatterDims ⟨2, ![100000, C]⟩ ⟨2, ![3200000, 1]⟩ ⟨2, ![3200000, C]⟩)
    (hdR : dR.updateWindowDims = [1] ∧ dR.insertedWindowDims = [0] ∧ dR.scatterDimsToOperandDims = [0] ∧ dR.indexVectorDim = 1)
    (gR : GatherDims ⟨2, ![100000, C]⟩ ⟨2, ![3200000, 1]⟩ ⟨2, ![3200000, C]⟩)
    (hgR : gR.offsetDims = [1] ∧ gR.collapsedSliceDims = [0] ∧ gR.operandBatchingDims = [] ∧ gR.startIndicesBatchingDims = []
      ∧ gR.startIndexMap = [0] ∧ gR.indexVectorDim = 1 ∧ gR.sliceSizes = ![1, C])
    (bAs : (⟨0, ![]⟩ : Shape).BroadcastsInDim ⟨1, ![3300000]⟩ (![] : Fin 0 → Fin 1))
    (bA1 : (⟨1, ![3300000]⟩ : Shape).BroadcastsInDim ⟨2, ![3300000, 1]⟩ (![0] : Fin 1 → Fin 2))
    (bA2 : (⟨2, ![3300000, 1]⟩ : Shape).BroadcastsInDim ⟨2, ![3300000, C]⟩ (![0, 1] : Fin 2 → Fin 2))
    (bEs : (⟨0, ![]⟩ : Shape).BroadcastsInDim ⟨1, ![3200000]⟩ (![] : Fin 0 → Fin 1))
    (bE1 : (⟨1, ![3200000]⟩ : Shape).BroadcastsInDim ⟨2, ![3200000, 1]⟩ (![0] : Fin 1 → Fin 2))
    (bE2 : (⟨2, ![3200000, 1]⟩ : Shape).BroadcastsInDim ⟨2, ![3200000, C]⟩ (![0, 1] : Fin 2 → Fin 2))
    (bN1 : (⟨1, ![100000]⟩ : Shape).BroadcastsInDim ⟨2, ![100000, 1]⟩ (![0] : Fin 1 → Fin 2))
    (bN2 : (⟨2, ![100000, 1]⟩ : Shape).BroadcastsInDim ⟨2, ![100000, C]⟩ (![0, 1] : Fin 2 → Fin 2))
    (hcat : Shape.Concatenates [(⟨1, ![3200000]⟩ : Shape), ⟨1, ![100000]⟩] ⟨1, ![3300000]⟩ 0)
    (Z H : FVec Ideal ⟨2, ![100000, C]⟩ .f32) (src dst : IVec ⟨1, ![3200000]⟩ 32)
    (en : FVec Ideal ⟨1, ![3200000]⟩ .f32) (sn : FVec Ideal ⟨1, ![100000]⟩ .f32) :
    Host.scatterAdd dK Z
        (broadcastInDim ⟨2, ![3300000, 1]⟩ ![0] bA1
          (concatenate ⟨1, ![3300000]⟩ 0 [⟨⟨1, ![3200000]⟩, dst⟩, ⟨⟨1, ![100000]⟩, iotaInDim ⟨1, ![100000]⟩ 32 0⟩] hcat))
        (mulf
          (Host.gather gK H (broadcastInDim ⟨2, ![3300000, 1]⟩ ![0] bA1
            (wrapIdx bAs (concatenate ⟨1, ![3300000]⟩ 0 [⟨⟨1, ![3200000]⟩, src⟩, ⟨⟨1, ![100000]⟩, iotaInDim ⟨1, ![100000]⟩ 32 0⟩] hcat))))
          (broadcastInDim ⟨2, ![3300000, C]⟩ ![0, 1] bA2 (broadcastInDim ⟨2, ![3300000, 1]⟩ ![0] bA1
            (concatenate ⟨1, ![3300000]⟩ 0 [⟨⟨1, ![3200000]⟩, en⟩, ⟨⟨1, ![100000]⟩, sn⟩] hcat))))
      = addf
        (Host.scatterAdd dR Z (broadcastInDim ⟨2, ![3200000, 1]⟩ ![0] bE1 dst)
          (mulf (Host.gather gR H (broadcastInDim ⟨2, ![3200000, 1]⟩ ![0] bE1 (wrapIdx bEs src)))
            (broadcastInDim ⟨2, ![3200000, C]⟩ ![0, 1] bE2 (broadcastInDim ⟨2, ![3200000, 1]⟩ ![0] bE1 en))))
        (mulf H (broadcastInDim ⟨2, ![100000, C]⟩ ![0, 1] bN2 (broadcastInDim ⟨2, ![100000, 1]⟩ ![0] bN1 sn))) := by
  funext i
  obtain ⟨r, c, rfl⟩ : ∃ (r : Fin 100000) (c : Fin C), i = ix2 r c := ⟨i 0, i 1, eq_ix2 i⟩
  simp only [Host.scatterAdd, Ideal.hostScatterAdd_def, Ideal.hostScatterAdd, addf_apply]
  rw [Finset.sum_filter, Finset.sum_filter, sum_idx2, sum_idx2,
    sum_split (show 3200000 + 100000 = 3300000 from rfl), add_assoc (Z _)]
  refine congrArg (Z (ix2 r c) + ·) (congrArg₂ (· + ·) ?_ ?_)
  · -- the original edges: the same landing condition and the same value on both sides
    refine Finset.sum_congr rfl fun e _ => Finset.sum_congr rfl fun f _ => ?_
    simp only [land_cat_left dK hdK, land_col dR hdR]
    rw [mulf_apply, mulf_apply, take_col gK hgK (by omega), take_col gR hgR (by omega), brow_apply, brow_apply,
      cat_left, wrapIdx_apply, wrapIdx_apply, cat_left]
  · -- the self edges: only node r's lands on row r, and only its column c on column c
    rw [mulf_apply, brow_apply]
    refine (Finset.sum_eq_single r (fun p _ hp => ?_) (fun h => absurd (Finset.mem_univ _) h)).trans ?_
    · refine Finset.sum_eq_zero fun f _ => if_neg ?_
      rw [land_cat_right dK hdK, iota_ix1, toInt_node p.val p.isLt]
      rintro ⟨h1, -⟩
      exact hp (Fin.ext (by exact_mod_cast h1))
    refine (Finset.sum_eq_single c (fun f _ hf => ?_) (fun h => absurd (Finset.mem_univ _) h)).trans ?_
    · refine if_neg ?_
      rw [land_cat_right dK hdK]
      rintro ⟨-, h2⟩
      exact hf (Fin.ext h2)
    · rw [if_pos ((land_cat_right dK hdK bA1 hcat _ _ r _ c _).2 ⟨toInt_node r.val r.isLt, rfl⟩)]
      rw [mulf_apply, take_col gK hgK (by omega), brow_apply, cat_right, wrapIdx_apply, cat_right, iota_ix1, self_row]

end Cert.GraphConv

end
-- ==== Proof.SelfNorm.lean ====
/-
  The self weight of a node.

  A node's degree is one more than the number of edges that end in it: a sum of ones, one per such edge, so a
  positive whole number. For a positive real d the reciprocal square root squared is the reciprocal:
  (1 / sqrt d) * (1 / sqrt d) = 1 / d.
-/
import Idealize.ShloMosaic.PureOps.Ideal
import Idealize.ShloMosaic.PureOps.Contract
import Idealize.ShloMosaic.PureOps.Vector
import Idealize.ShloMosaic.PureOps.Ideal.Laws

noncomputable section

namespace Cert.GraphConv

open Idealize.ShloMosaic

/-- The word 0x3F800000 is the number one. -/
private theorem ofBits_one_f32 : Ideal.ofBits .f32 0x3F800000#32 = 1 := by
  simp [Ideal.ofBits, Ideal.ieee, -EReal.coe_mul]; norm_num

/-- A sum of ones over a finite set is the number of its elements. -/
private theorem sum_ones {ι : Type} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one, add_comm]

/-- For a positive real r: (1 / sqrt r) * (1 / sqrt r) = 1 / r, since sqrt r * sqrt r = r. -/
private theorem rsqrt_mul_self (r : ℝ) (hr : 0 < r) :
    Ideal.rsqrt (r : EReal) * Ideal.rsqrt (r : EReal) = Ideal.div 1 (r : EReal) := by
  rw [Ideal.rsqrt_coe, if_neg (not_lt.2 hr.le), if_neg hr.ne', Ideal.div_coe hr.ne', one_mul, ← EReal.coe_mul]
  congr 1
  rw [← mul_inv, Real.mul_self_sqrt hr.le, one_div]

/-- The degrees: ones scattered by destination into zeros, plus one. -/
abbrev degOf {n : Nat} (d : ScatterDims ⟨1, ![100000]⟩ ⟨2, ![n, 1]⟩ ⟨1, ![n]⟩)
    (bNs : (⟨0, ![]⟩ : Shape).BroadcastsInDim ⟨1, ![100000]⟩ (![] : Fin 0 → Fin 1))
    (bns : (⟨0, ![]⟩ : Shape).BroadcastsInDim ⟨1, ![n]⟩ (![] : Fin 0 → Fin 1))
    (idx : IVec ⟨2, ![n, 1]⟩ 32) : FVec Ideal ⟨1, ![100000]⟩ .f32 :=
  addf (Host.scatterAdd d (broadcastInDim ⟨1, ![100000]⟩ ![] bNs (constant ⟨0, ![]⟩ .f32 0x00000000#32)) idx
      (broadcastInDim ⟨1, ![n]⟩ ![] bns (constant ⟨0, ![]⟩ .f32 0x3F800000#32)))
    (broadcastInDim ⟨1, ![100000]⟩ ![] bNs (constant ⟨0, ![]⟩ .f32 0x3F800000#32))

/-- The degree at a node is a positive whole number: zero, plus one for every edge that ends in the node (whichever
    edges those are, each contributes the number one), plus one. -/
theorem degOf_apply {n : Nat} (d : ScatterDims ⟨1, ![100000]⟩ ⟨2, ![n, 1]⟩ ⟨1, ![n]⟩)
    (bNs : (⟨0, ![]⟩ : Shape).BroadcastsInDim ⟨1, ![100000]⟩ (![] : Fin 0 → Fin 1))
    (bns : (⟨0, ![]⟩ : Shape).BroadcastsInDim ⟨1, ![n]⟩ (![] : Fin 0 → Fin 1))
    (idx : IVec ⟨2, ![n, 1]⟩ 32) (i : (⟨1, ![100000]⟩ : Shape).Idx) :
    ∃ k : ℕ, degOf d bNs bns idx i = (((k + 1 : ℕ) : ℝ) : EReal) := by
  refine ⟨(Finset.univ.filter (fun j => d.resultIdx? j idx = some i)).card, ?_⟩
  show (Ideal.ofBits .f32 0x00000000#32
        + ∑ _j ∈ Finset.univ.filter (fun j => d.resultIdx? j idx = some i), Ideal.ofBits .f32 0x3F800000#32)
      + Ideal.ofBits .f32 0x3F800000#32 = _
  rw [Ideal.ofBits_zero_f32, ofBits_one_f32, zero_add, sum_ones, Nat.cast_succ, EReal.coe_add, EReal.coe_one]

/-- The reciprocal square root of the degree, squared, is one over the degree. -/
theorem rsqrt_sq_eq_inv {n : Nat} (d : ScatterDims ⟨1, ![100000]⟩ ⟨2, ![n, 1]⟩ ⟨1, ![n]⟩)
    (bNs : (⟨0, ![]⟩ : Shape).BroadcastsInDim ⟨1, ![100000]⟩ (![] : Fin 0 → Fin 1))
    (bns : (⟨0, ![]⟩ : Shape).BroadcastsInDim ⟨1, ![n]⟩ (![] : Fin 0 → Fin 1))
    (idx : IVec ⟨2, ![n, 1]⟩ 32) :
    mulf (Host.rsqrt (degOf d bNs bns idx)) (Host.rsqrt (degOf d bNs bns idx))
      = Host.divf (broadcastInDim ⟨1, ![100000]⟩ ![] bNs (constant ⟨0, ![]⟩ .f32 0x3F800000#32)) (degOf d bNs bns idx) := by
  funext i
  obtain ⟨k, hk⟩ := degOf_apply d bNs bns idx i
  show Ideal.rsqrt (degOf d bNs bns idx i) * Ideal.rsqrt (degOf d bNs bns idx i)
      = Ideal.div (Ideal.ofBits .f32 0x3F800000#32) (degOf d bNs bns idx i)
  rw [hk, ofBits_one_f32]
  exact rsqrt_mul_self _ (by exact_mod_cast Nat.succ_pos k)

end Cert.GraphConv

end
-- ==== Proof.Spec.lean ====
/-
  The two programs' results as functions of the six argument arrays.

  Both programs compute a two-layer graph convolution. From the edge list: source and destination node of each of
  the 3200000 edges; the degree of a node (one more than the number of edges ending in it), its reciprocal square
  root, the weight of an edge (the product of that of its two ends). A layer multiplies the node features by a
  weight matrix, gathers the product's rows along the edges' sources, scales each by the edge's weight, sums them
  by destination, adds each node's own row scaled by the node's self weight, and adds a bias row. The kernel's
  program appends the 100000 self edges to the edge list (self weight: the reciprocal square root squared) and
  sums once; the reference sums over the edges and adds the self term (self weight: one over the degree).
-/
import proofs.«138761_j19645180412674_1_alg».proof.Proof.Gen.KernelIdeal
import proofs.«138761_j19645180412674_1_alg».proof.Proof.Gen.ReferenceIdeal
import proofs.«138761_j19645180412674_1_alg».proof.Proof.Layer
import proofs.«138761_j19645180412674_1_alg».proof.Proof.SelfNorm

noncomputable section

namespace Cert.GraphConv

open Idealize.ShloMosaic

namespace K
export Cert.KernelIdeal (S2x3200000 S1x3200000 S3200000 S3200000x1 S3300000 S3300000x1 S3300000x64 S3300000x2 S100000 S100000x64
  S100000x2 S100000x128 S128x64 S64x2 S64 S2 S1x64 S1x2 S_)
end K

/-- The edges' source nodes: row 0 of the edge list. -/
def srcOf (ei : IVec K.S2x3200000 32) : IVec K.S3200000 32 :=
  shapeCast K.S3200000 (extractStridedSlice K.S1x3200000 ![0, 0] ei Cert.KernelIdeal.Gen.slices_S2x3200000_S1x3200000_0_0)
    Cert.KernelIdeal.Gen.shapeCasts_S1x3200000_S3200000

/-- The edges' destination nodes: row 1 of the edge list. -/
def dstOf (ei : IVec K.S2x3200000 32) : IVec K.S3200000 32 :=
  shapeCast K.S3200000 (extractStridedSlice K.S1x3200000 ![1, 0] ei Cert.KernelIdeal.Gen.slices_S2x3200000_S1x3200000_1_0)
    Cert.KernelIdeal.Gen.shapeCasts_S1x3200000_S3200000

/-- A node's degree: one more than the number of edges ending in it. -/
def degree (ei : IVec K.S2x3200000 32) : FVec Ideal K.S100000 .f32 :=
  degOf Cert.KernelIdeal.scatter_S100000_S3200000x1_S3200000_n_0_0_1 Cert.KernelIdeal.Gen.bcast_S_S100000
    Cert.KernelIdeal.Gen.bcast_S_S3200000
    (broadcastInDim K.S3200000x1 ![0] Cert.KernelIdeal.Gen.bcast_S3200000_S3200000x1_0 (dstOf ei))

/-- The reciprocal square root of the degree. -/
def invSqrtDeg (ei : IVec K.S2x3200000 32) : FVec Ideal K.S100000 .f32 := Host.rsqrt (degree ei)

/-- An edge's weight: the product of the reciprocal square roots of its two ends' degrees. -/
def edgeWeight (ei : IVec K.S2x3200000 32) : FVec Ideal K.S3200000 .f32 :=
  mulf
    (Host.gather Cert.KernelIdeal.gather_S100000_S3200000x1_S3200000_n_0_n_n_0_1_1 (invSqrtDeg ei)
      (broadcastInDim K.S3200000x1 ![0] Cert.KernelIdeal.Gen.bcast_S3200000_S3200000x1_0
        (wrapIdx Cert.KernelIdeal.Gen.bcast_S_S3200000 (srcOf ei))))
    (Host.gather Cert.KernelIdeal.gather_S100000_S3200000x1_S3200000_n_0_n_n_0_1_1 (invSqrtDeg ei)
      (broadcastInDim K.S3200000x1 ![0] Cert.KernelIdeal.Gen.bcast_S3200000_S3200000x1_0
        (wrapIdx Cert.KernelIdeal.Gen.bcast_S_S3200000 (dstOf ei))))

/-- The kernel's self weight of a node: the reciprocal square root of its degree, squared. -/
def selfWeightK (ei : IVec K.S2x3200000 32) : FVec Ideal K.S100000 .f32 := mulf (invSqrtDeg ei) (invSqrtDeg ei)

/-- The reference's self weight of a node: one over its degree. -/
def selfWeightR (ei : IVec K.S2x3200000 32) : FVec Ideal K.S100000 .f32 :=
  Host.divf (broadcastInDim K.S100000 ![] Cert.KernelIdeal.Gen.bcast_S_S100000 (constant K.S_ .f32 0x3F800000#32)) (degree ei)

/-- The node numbers 0 … 99999. -/
def nodeIds : IVec K.S100000 32 := iotaInDim K.S100000 32 0

/-- The extended edge list's sources, destinations and weights: the edges', then one self edge per node. -/
def augSrc (ei : IVec K.S2x3200000 32) : IVec K.S3300000 32 :=
  concatenate K.S3300000 0 [⟨K.S3200000, srcOf ei⟩, ⟨K.S100000, nodeIds⟩] Cert.KernelIdeal.Gen.concatenates_S3200000_S100000_S3300000_d0
def augDst (ei : IVec K.S2x3200000 32) : IVec K.S3300000 32 :=
  concatenate K.S3300000 0 [⟨K.S3200000, dstOf ei⟩, ⟨K.S100000, nodeIds⟩] Cert.KernelIdeal.Gen.concatenates_S3200000_S100000_S3300000_d0
def augWeight (ei : IVec K.S2x3200000 32) : FVec Ideal K.S3300000 .f32 :=
  concatenate K.S3300000 0 [⟨K.S3200000, edgeWeight ei⟩, ⟨K.S100000, selfWeightK ei⟩] Cert.KernelIdeal.Gen.concatenates_S3200000_S100000_S3300000_d0

/-- The kernel's aggregation of a table of 64 columns over the extended edge list. -/
def aggK64 (H : FVec Ideal K.S100000x64 .f32) (asrc adst : IVec K.S3300000 32) (aw : FVec Ideal K.S3300000 .f32) :
    FVec Ideal K.S100000x64 .f32 :=
  Host.scatterAdd Cert.KernelIdeal.scatter_S100000x64_S3300000x1_S3300000x64_1_0_0_1
    (broadcastInDim K.S100000x64 ![] Cert.KernelIdeal.Gen.bcast_S_S100000x64 (constant K.S_ .f32 0x00000000#32))
    (broadcastInDim K.S3300000x1 ![0] Cert.KernelIdeal.Gen.bcast_S3300000_S3300000x1_0 adst)
    (mulf
      (Host.gather Cert.KernelIdeal.gather_S100000x64_S3300000x1_S3300000x64_1_0_n_n_0_1_164 H
        (broadcastInDim K.S3300000x1 ![0] Cert.KernelIdeal.Gen.bcast_S3300000_S3300000x1_0
          (wrapIdx Cert.KernelIdeal.Gen.bcast_S_S3300000 asrc)))
      (broadcastInDim K.S3300000x64 ![0, 1] Cert.KernelIdeal.Gen.bcast_S3300000x1_S3300000x64_0_1
        (broadcastInDim K.S3300000x1 ![0] Cert.KernelIdeal.Gen.bcast_S3300000_S3300000x1_0 aw)))

/-- The kernel's aggregation of a table of 2 columns over the extended edge list. -/
def aggK2 (H : FVec Ideal K.S100000x2 .f32) (asrc adst : IVec K.S3300000 32) (aw : FVec Ideal K.S3300000 .f32) :
    FVec Ideal K.S100000x2 .f32 :=
  Host.scatterAdd Cert.KernelIdeal.scatter_S100000x2_S3300000x1_S3300000x2_1_0_0_1
    (broadcastInDim K.S100000x2 ![] Cert.KernelIdeal.Gen.bcast_S_S100000x2 (constant K.S_ .f32 0x00000000#32))
    (broadcastInDim K.S3300000x1 ![0] Cert.KernelIdeal.Gen.bcast_S3300000_S3300000x1_0 adst)
    (mulf
      (Host.gather Cert.KernelIdeal.gather_S100000x2_S3300000x1_S3300000x2_1_0_n_n_0_1_12 H
        (broadcastInDim K.S3300000x1 ![0] Cert.KernelIdeal.Gen.bcast_S3300000_S3300000x1_0
          (wrapIdx Cert.KernelIdeal.Gen.bcast_S_S3300000 asrc)))
      (broadcastInDim K.S3300000x2 ![0, 1] Cert.KernelIdeal.Gen.bcast_S3300000x1_S3300000x2_0_1
        (broadcastInDim K.S3300000x1 ![0] Cert.KernelIdeal.Gen.bcast_S3300000_S3300000x1_0 aw)))

/-- The reference's aggregation of a table of 64 columns: the sum over the edges plus the self term. -/
def aggR64 (H : FVec Ideal K.S100000x64 .f32) (src dst : IVec K.S3200000 32) (w : FVec Ideal K.S3200000 .f32)
    (sw : FVec Ideal K.S100000 .f32) : FVec Ideal K.S100000x64 .f32 :=
  addf
    (Host.scatterAdd Cert.ReferenceIdeal.scatter_S100000x64_S3200000x1_S3200000x64_1_0_0_1
      (broadcastInDim K.S100000x64 ![] Cert.ReferenceIdeal.Gen.bcast_S_S100000x64 (constant K.S_ .f32 0x00000000#32))
      (broadcastInDim K.S3200000x1 ![0] Cert.ReferenceIdeal.Gen.bcast_S3200000_S3200000x1_0 dst)
      (mulf
        (Host.gather Cert.ReferenceIdeal.gather_S100000x64_S3200000x1_S3200000x64_1_0_n_n_0_1_164 H
          (broadcastInDim K.S3200000x1 ![0] Cert.ReferenceIdeal.Gen.bcast_S3200000_S3200000x1_0
            (wrapIdx Cert.ReferenceIdeal.Gen.bcast_S_S3200000 src)))
        (broadcastInDim Cert.ReferenceIdeal.S3200000x64 ![0, 1] Cert.ReferenceIdeal.Gen.bcast_S3200000x1_S3200000x64_0_1
          (broadcastInDim K.S3200000x1 ![0] Cert.ReferenceIdeal.Gen.bcast_S3200000_S3200000x1_0 w))))
    (mulf H (broadcastInDim K.S100000x64 ![0, 1] Cert.ReferenceIdeal.Gen.bcast_S100000x1_S100000x64_0_1
      (broadcastInDim Cert.ReferenceIdeal.S100000x1 ![0] Cert.ReferenceIdeal.Gen.bcast_S100000_S100000x1_0 sw)))

/-- The reference's aggregation of a table of 2 columns. -/
def aggR2 (H : FVec Ideal K.S100000x2 .f32) (src dst : IVec K.S3200000 32) (w : FVec Ideal K.S3200000 .f32)
    (sw : FVec Ideal K.S100000 .f32) : FVec Ideal K.S100000x2 .f32 :=
  addf
    (Host.scatterAdd Cert.ReferenceIdeal.scatter_S100000x2_S3200000x1_S3200000x2_1_0_0_1
      (broadcastInDim K.S100000x2 ![] Cert.ReferenceIdeal.Gen.bcast_S_S100000x2 (constant K.S_ .f32 0x00000000#32))
      (broadcastInDim K.S3200000x1 ![0] Cert.ReferenceIdeal.Gen.bcast_S3200000_S3200000x1_0 dst)
      (mulf
        (Host.gather Cert.ReferenceIdeal.gather_S100000x2_S3200000x1_S3200000x2_1_0_n_n_0_1_12 H
          (broadcastInDim K.S3200000x1 ![0] Cert.ReferenceIdeal.Gen.bcast_S3200000_S3200000x1_0
            (wrapIdx Cert.ReferenceIdeal.Gen.bcast_S_S3200000 src)))
        (broadcastInDim Cert.ReferenceIdeal.S3200000x2 ![0, 1] Cert.ReferenceIdeal.Gen.bcast_S3200000x1_S3200000x2_0_1
          (broadcastInDim K.S3200000x1 ![0] Cert.ReferenceIdeal.Gen.bcast_S3200000_S3200000x1_0 w))))
    (mulf H (broadcastInDim K.S100000x2 ![0, 1] Cert.ReferenceIdeal.Gen.bcast_S100000x1_S100000x2_0_1
      (broadcastInDim Cert.ReferenceIdeal.S100000x1 ![0] Cert.ReferenceIdeal.Gen.bcast_S100000_S100000x1_0 sw)))

/-- The dense products of the two layers. -/
def dense1 (x : FVec Ideal K.S100000x128 .f32) (w : FVec Ideal K.S128x64 .f32) : FVec Ideal K.S100000x64 .f32 :=
  Host.dotGeneral (F := Ideal) (φ₁ := .f32) (φ₂ := .f32) Cert.ReferenceIdeal.dot_S100000x128_S128x64_S100000x64_1_0_0_1_n_n none x w
def dense2 (h : FVec Ideal K.S100000x64 .f32) (w : FVec Ideal K.S64x2 .f32) : FVec Ideal K.S100000x2 .f32 :=
  Host.dotGeneral (F := Ideal) (φ₁ := .f32) (φ₂ := .f32) Cert.ReferenceIdeal.dot_S100000x64_S64x2_S100000x2_1_0_0_1_n_n none h w

/-- The all-zero table the first layer's result is cut off against. -/
def zeros64 : FVec Ideal K.S100000x64 .f32 :=
  broadcastInDim K.S100000x64 ![] Cert.KernelIdeal.Gen.bcast_S_S100000x64 (constant K.S_ .f32 0x00000000#32)

/-- The kernel's result. -/
def kernelOut (x : FVec Ideal K.S100000x128 .f32) (ei : IVec K.S2x3200000 32) (w1 : FVec Ideal K.S128x64 .f32)
    (b1 : FVec Ideal K.S64 .f32) (w2 : FVec Ideal K.S64x2 .f32) (b2 : FVec Ideal K.S2 .f32) : FVec Ideal K.S100000x2 .f32 :=
  addf
    (aggK2
      (dense2
        (maximumf
          (addf (aggK64 (dense1 x w1) (augSrc ei) (augDst ei) (augWeight ei))
            (broadcastInDim K.S100000x64 ![0, 1] Cert.ReferenceIdeal.Gen.bcast_S1x64_S100000x64_0_1
              (shapeCast K.S1x64 b1 Cert.KernelIdeal.Gen.shapeCasts_S64_S1x64)))
          zeros64)
        w2)
      (augSrc ei) (augDst ei) (augWeight ei))
    (broadcastInDim K.S100000x2 ![0, 1] Cert.ReferenceIdeal.Gen.bcast_S1x2_S100000x2_0_1
      (shapeCast K.S1x2 b2 Cert.KernelIdeal.Gen.shapeCasts_S2_S1x2))

/-- The reference's result. -/
def referenceOut (x : FVec Ideal K.S100000x128 .f32) (ei : IVec K.S2x3200000 32) (w1 : FVec Ideal K.S128x64 .f32)
    (b1 : FVec Ideal K.S64 .f32) (w2 : FVec Ideal K.S64x2 .f32) (b2 : FVec Ideal K.S2 .f32) : FVec Ideal K.S100000x2 .f32 :=
  addf
    (aggR2
      (dense2
        (maximumf
          (addf (aggR64 (dense1 x w1) (srcOf ei) (dstOf ei) (edgeWeight ei) (selfWeightR ei))
            (broadcastInDim K.S100000x64 ![0, 1] Cert.ReferenceIdeal.Gen.bcast_S1x64_S100000x64_0_1
              (broadcastInDim K.S1x64 ![1] Cert.ReferenceIdeal.Gen.bcast_S64_S1x64_1 b1)))
          zeros64)
        w2)
      (srcOf ei) (dstOf ei) (edgeWeight ei) (selfWeightR ei))
    (broadcastInDim K.S100000x2 ![0, 1] Cert.ReferenceIdeal.Gen.bcast_S1x2_S100000x2_0_1
      (broadcastInDim K.S1x2 ![1] Cert.ReferenceIdeal.Gen.bcast_S2_S1x2_1 b2))

end Cert.GraphConv

end
-- ==== Proof.HostFirst.lean ====
/-
  The buffers after the kernel program's first stretch of host operations.

  The first stretch computes, from the edge list, the extended edge list (sources, destinations, weights); it writes
  no argument array.
-/
import proofs.«138761_j19645180412674_1_alg».proof.Proof.Gen.KernelIdeal.Frame
import proofs.«138761_j19645180412674_1_alg».proof.Proof.Spec
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.GraphConv

variable (m : (ℓ : Loc nD τ sig) → Buf (Elt Ideal) ℓ) (ρ : Dev nD → PrngReg)

/-! ## After the first stretch of host operations -/

theorem w1_arg0 (c : Dev nD) : W1 m ρ c (Proc.devRef .tc main_arg0) = m ((c.tc : Thread nD τ).loc main_arg0) := by
  show StableHlo.after hostOps0 (W0 m ρ c) (Proc.devRef .tc main_arg0) = _
  after_results
theorem w1_arg2 (c : Dev nD) : W1 m ρ c (Proc.devRef .tc main_arg2) = m ((c.tc : Thread nD τ).loc main_arg2) := by
  show StableHlo.after hostOps0 (W0 m ρ c) (Proc.devRef .tc main_arg2) = _
  after_results
theorem w1_arg3 (c : Dev nD) : W1 m ρ c (Proc.devRef .tc main_arg3) = m ((c.tc : Thread nD τ).loc main_arg3) := by
  show StableHlo.after hostOps0 (W0 m ρ c) (Proc.devRef .tc main_arg3) = _
  after_results
theorem w1_arg4 (c : Dev nD) : W1 m ρ c (Proc.devRef .tc main_arg4) = m ((c.tc : Thread nD τ).loc main_arg4) := by
  show StableHlo.after hostOps0 (W0 m ρ c) (Proc.devRef .tc main_arg4) = _
  after_results
theorem w1_arg5 (c : Dev nD) : W1 m ρ c (Proc.devRef .tc main_arg5) = m ((c.tc : Thread nD τ).loc main_arg5) := by
  show StableHlo.after hostOps0 (W0 m ρ c) (Proc.devRef .tc main_arg5) = _
  after_results

/-- The extended edge list's sources. -/
theorem w1_v28 (c : Dev nD) :
    W1 m ρ c (Proc.devRef .tc main_v28) = augSrc (m ((c.tc : Thread nD τ).loc main_arg1)) := by
  show StableHlo.after hostOps0 (W0 m ρ c) (Proc.devRef .tc main_v28) = _
  after_results; rfl
/-- The extended edge list's destinations. -/
theorem w1_v29 (c : Dev nD) :
    W1 m ρ c (Proc.devRef .tc main_v29) = augDst (m ((c.tc : Thread nD τ).loc main_arg1)) := by
  show StableHlo.after hostOps0 (W0 m ρ c) (Proc.devRef .tc main_v29) = _
  after_results; rfl
set_option maxHeartbeats 8000000 in
/-- The extended edge list's weights. -/
theorem w1_v30 (c : Dev nD) :
    W1 m ρ c (Proc.devRef .tc main_v30) = augWeight (m ((c.tc : Thread nD τ).loc main_arg1)) := by
  show StableHlo.after hostOps0 (W0 m ρ c) (Proc.devRef .tc main_v30) = _
  after_results; rfl

end Cert.KernelIdeal.KernelValue

end
-- ==== Proof.RegionMM.lean ====
/-
  The two dense layers' arrays after their regions.

  Each grid point multiplies a block of 5000 rows of the left array by the whole right array; the format changes
  on the way are the identity over the extended reals and the accumulator starts at zero, so the block written
  back is that block of the plain matrix product, and the twenty blocks tile the rows.
-/
import proofs.«138761_j19645180412674_1_alg».proof.Proof.Gen.KernelIdeal.Frame
import proofs.«138761_j19645180412674_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b))

/-- The zero offsets of a whole-block read or write, as a constant function. -/
theorem zero2 : (![0, 0] : Fin 2 → Nat) = fun _ => 0 := funext fun a => by fin_cases a <;> rfl

/-! ## The first dense layer -/

/-- The printed index maps, decided over the twenty grid points: the left operand's and the result's row block is the
    point's number, everything else is block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block product reads the left operand at (row, k). -/
theorem lhs_blk0_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk0_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- … and the right operand at (k, column). -/
theorem rhs_blk0_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blk0_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The whole product reads the same way, over the 100000 rows. -/
theorem lhs_arr0_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem lhs_arr0_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhs_arr0_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhs_arr0_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The body's payload at an index: the format changes are the identity and the accumulator is zero, so it is the
    plain sum over the contracted axis. -/
theorem pay0_apply (x0 : Vec Ideal S5000x128 .f32) (x1 : Vec Ideal S128x64 .f32) (y : S5000x64.Idx) :
    k0_pay1 x0 x1 y = ∑ k : dot_S5000x128_S128x64_S5000x64_1_0_0_1_n_n.contr.Idx,
      x0 (dot_S5000x128_S128x64_S5000x64_1_0_0_1_n_n.lhsIdx y k) * x1 (dot_S5000x128_S128x64_S5000x64_1_0_0_1_n_n.rhsIdx y k) := by
  unfold k0_pay1
  exact Ideal.matmul_constant_zero_apply _ none _ _ y

/-- The whole product at an index. -/
theorem prod0_apply (a : Vec Ideal S100000x128 .f32) (b : Vec Ideal S128x64 .f32) (i : S100000x64.Idx) :
    Host.dotGeneral (F := Ideal) (φ₁ := .f32) (φ₂ := .f32) Cert.ReferenceIdeal.dot_S100000x128_S128x64_S100000x64_1_0_0_1_n_n none a b i
      = ∑ k : Cert.ReferenceIdeal.dot_S100000x128_S128x64_S100000x64_1_0_0_1_n_n.contr.Idx,
          a (Cert.ReferenceIdeal.dot_S100000x128_S128x64_S100000x64_1_0_0_1_n_n.lhsIdx i k) * b (Cert.ReferenceIdeal.dot_S100000x128_S128x64_S100000x64_1_0_0_1_n_n.rhsIdx i k) :=
  Ideal.dotGeneral_apply _ none .single a b i

/-- ONE ELEMENT: if the left block is rows `5000 r …` of the left array and the right block is the right array, the
    payload at block index `y` is the whole product at row `5000 r + y₀`, column `y₁`: the two sums agree term by term. -/
theorem point0 (a : Vec Ideal S100000x128 .f32) (b : Vec Ideal S128x64 .f32)
    (x0 : Vec Ideal S5000x128 .f32) (x1 : Vec Ideal S128x64 .f32) (y : S5000x64.Idx) (i : S100000x64.Idx) (r : Nat)
    (h0 : ∀ (z : S5000x128.Idx) (z' : S100000x128.Idx), (z' 0).val = r * 5000 + (z 0).val → (z' 1).val = (z 1).val → x0 z = a z')
    (h1 : x1 = b) (hi0 : (i 0).val = r * 5000 + (y 0).val) (hi1 : (i 1).val = (y 1).val) :
    k0_pay1 x0 x1 y = Host.dotGeneral (F := Ideal) (φ₁ := .f32) (φ₂ := .f32) Cert.ReferenceIdeal.dot_S100000x128_S128x64_S100000x64_1_0_0_1_n_n none a b i := by
  rw [pay0_apply, prod0_apply, h1]
  refine Finset.sum_congr rfl fun k _ => ?_
  have el : x0 (dot_S5000x128_S128x64_S5000x64_1_0_0_1_n_n.lhsIdx y k) = a (Cert.ReferenceIdeal.dot_S100000x128_S128x64_S100000x64_1_0_0_1_n_n.lhsIdx i k) :=
    h0 _ _ (by rw [lhs_blk0_0]; exact (lhs_arr0_0 i k).trans hi0) (by rw [lhs_blk0_1]; exact lhs_arr0_1 i k)
  have er : dot_S5000x128_S128x64_S5000x64_1_0_0_1_n_n.rhsIdx y k = Cert.ReferenceIdeal.dot_S100000x128_S128x64_S100000x64_1_0_0_1_n_n.rhsIdx i k := funext fun ax => Fin.ext (by
    match ax with
    | ⟨0, _⟩ => exact (rhs_blk0_0 _ _).trans (rhs_arr0_0 _ _).symm
    | ⟨1, _⟩ => exact ((rhs_blk0_1 _ _).trans hi1.symm).trans (rhs_arr0_1 _ _).symm)
  rw [el, er]

/-- WHAT POINT `t` WRITES BACK is block `t` of the product of the two arrays as the region finds them. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x128_S128x64_S100000x64_1_0_0_1_n_n none
          (V c main_arg0) (V c main_arg2)) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x64) zero2]
  obtain ⟨e0, e1, e2, e3, e4, e5⟩ := idx0 t
  funext y
  refine point0 (V c main_arg0) (V c main_arg2) (iblk0 V c 0 t) (iblk0 V c 1 t) ((win0 2).xinj (grid0.coords t) y)
    (((cfg0.win 2).blk t).view.emb y) t.val ?_ ?_ ?_ ?_
  · intro z z' h0 h1
    show V c main_arg0 (((cfg0.win 0).blk t).view.emb z) = V c main_arg0 z'
    refine congrArg _ (funext fun ax => Fin.ext ?_)
    match ax with
    | ⟨0, _⟩ => show win0_0.index t (0 : Fin 2) * 5000 + 1 * (z 0).val = (z' 0).val; omega
    | ⟨1, _⟩ => show win0_0.index t (1 : Fin 2) * 128 + 1 * (z 1).val = (z' 1).val; omega
  · funext z
    show V c main_arg2 (((cfg0.win 1).blk t).view.emb z) = V c main_arg2 z
    refine congrArg _ (funext fun ax => Fin.ext ?_)
    match ax with
    | ⟨0, _⟩ => show win0_1.index t (0 : Fin 2) * 128 + 1 * (z 0).val = (z 0).val; omega
    | ⟨1, _⟩ => show win0_1.index t (1 : Fin 2) * 64 + 1 * (z 1).val = (z 1).val; omega
  · show win0_2.index t (0 : Fin 2) * 5000 + 1 * (y 0).val = t.val * 5000 + (y 0).val; omega
  · show win0_2.index t (1 : Fin 2) * 64 + 1 * (y 1).val = (y 1).val; omega

/-- An index of the result array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- The twenty blocks tile the rows: row `r` is in the block of point `r / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < cfg0.N := by show (i 0).val / 5000 < 20; omega
  refine ⟨⟨(i 0).val / 5000, ht⟩, flush0_2 _, ?_⟩
  obtain ⟨e0, e1, e2, e3, e4, e5⟩ := idx0 ⟨(i 0).val / 5000, ht⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4]; show (i 0).val / 5000 * 5000 ≤ _ ∧ _ < (i 0).val / 5000 * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; omega

/-- After the first region its result array is the product of the node features and the first weights. -/
theorem arr0_eq (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none
          (V c main_arg0) (V c main_arg2) :=
  (dat0 V c).arrAt_eq_of_cover 2 _ (fun t _ => flushed0_eq V c t) cover0

/-! ## The second dense layer -/

/-- The printed index maps, decided over the twenty grid points: the left operand's and the result's row block is the
    point's number, everything else is block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The block product reads the left operand at (row, k). -/
theorem lhs_blk2_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhs_blk2_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
/-- … and the right operand at (k, column). -/
theorem rhs_blk2_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem rhs_blk2_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The whole product reads the same way, over the 100000 rows. -/
theorem lhs_arr2_0 (i : S100000x2.Idx) (q : Cert.ReferenceIdeal.dot_S100000x64_S64x2_S100000x2_1_0_0_1_n_n.contr.Idx) :
    (Cert.ReferenceIdeal.dot_S100000x64_S64x2_S100000x2_1_0_0_1_n_n.lhsIdx i q 0).val = (i 0).val := by
  unfold DotDims.lhsIdx
  rw [dif_neg (show ¬(0 : Fin S100000x64.rank) ∈ Cert.ReferenceIdeal.dot_S100000x64_S64x2_S100000x2_1_0_0_1_n_n.lhsBatch by decide), dif_pos (show (0 : Fin S100000x64.rank) ∈ Cert.ReferenceIdeal.dot_S100000x64_S64x2_S100000x2_1_0_0_1_n_n.lhsNonContracting by decide)]
  rfl
theorem lhs_arr2_1 (i : S100000x2.Idx) (q : Cert.ReferenceIdeal.dot_S100000x64_S64x2_S100000x2_1_0_0_1_n_n.contr.Idx) :
    (Cert.ReferenceIdeal.dot_S100000x64_S64x2_S100000x2_1_0_0_1_n_n.lhsIdx i q 1).val = (q ⟨0, by decide⟩).val :=
  Cert.ReferenceIdeal.dot_S100000x64_S64x2_S100000x2_1_0_0_1_n_n.lhsIdx_val_of_single rfl i q
theorem rhs_arr2_0 (i : S100000x2.Idx) (q : Cert.ReferenceIdeal.dot_S100000x64_S64x2_S100000x2_1_0_0_1_n_n.contr.Idx) :
    (Cert.ReferenceIdeal.dot_S100000x64_S64x2_S100000x2_1_0_0_1_n_n.rhsIdx i q 0).val = (q ⟨0, by decide⟩).val :=
  Cert.ReferenceIdeal.dot_S100000x64_S64x2_S100000x2_1_0_0_1_n_n.rhsIdx_val_of_single rfl i q
theorem rhs_arr2_1 (i : S100000x2.Idx) (q : Cert.ReferenceIdeal.dot_S100000x64_S64x2_S100000x2_1_0_0_1_n_n.contr.Idx) :
    (Cert.ReferenceIdeal.dot_S100000x64_S64x2_S100000x2_1_0_0_1_n_n.rhsIdx i q 1).val = (i 1).val := by
  unfold DotDims.rhsIdx
  rw [dif_neg (show ¬(1 : Fin S64x2.rank) ∈ Cert.ReferenceIdeal.dot_S100000x64_S64x2_S100000x2_1_0_0_1_n_n.rhsBatch by decide), dif_pos (show (1 : Fin S64x2.rank) ∈ Cert.ReferenceIdeal.dot_S100000x64_S64x2_S100000x2_1_0_0_1_n_n.rhsNonContracting by decide)]
  rfl

/-- The body's payload at an index: the reshape to the same shape and the format changes are the identity and the
    accumulator is zero, so it is the plain sum over the contracted axis. -/
theorem pay2_apply (x0 : Vec Ideal S5000x64 .f32) (x1 : Vec Ideal S64x2 .f32) (y : S5000x2.Idx) :
    k2_pay1 x0 x1 y = ∑ k : dot_S5000x64_S64x2_S5000x2_1_0_0_1_n_n.contr.Idx,
      x0 (dot_S5000x64_S64x2_S5000x2_1_0_0_1_n_n.lhsIdx y k) * x1 (dot_S5000x64_S64x2_S5000x2_1_0_0_1_n_n.rhsIdx y k) := by
  unfold k2_pay1
  rw [shapeCast_self]
  exact Ideal.matmul_constant_zero_apply _ none _ _ y

/-- The whole product at an index. -/
theorem prod2_apply (a : Vec Ideal S100000x64 .f32) (b : Vec Ideal S64x2 .f32) (i : S100000x2.Idx) :
    Host.dotGeneral (F := Ideal) (φ₁ := .f32) (φ₂ := .f32) Cert.ReferenceIdeal.dot_S100000x64_S64x2_S100000x2_1_0_0_1_n_n none a b i
      = ∑ k : Cert.ReferenceIdeal.dot_S100000x64_S64x2_S100000x2_1_0_0_1_n_n.contr.Idx,
          a (Cert.ReferenceIdeal.dot_S100000x64_S64x2_S100000x2_1_0_0_1_n_n.lhsIdx i k) * b (Cert.ReferenceIdeal.dot_S100000x64_S64x2_S100000x2_1_0_0_1_n_n.rhsIdx i k) :=
  Ideal.dotGeneral_apply _ none .single a b i

/-- ONE ELEMENT: if the left block is rows `5000 r …` of the left array and the right block is the right array, the
    payload at block index `y` is the whole product at row `5000 r + y₀`, column `y₁`: the two sums agree term by term. -/
theorem point2 (a : Vec Ideal S100000x64 .f32) (b : Vec Ideal S64x2 .f32)
    (x0 : Vec Ideal S5000x64 .f32) (x1 : Vec Ideal S64x2 .f32) (y : S5000x2.Idx) (i : S100000x2.Idx) (r : Nat)
    (h0 : ∀ (z : S5000x64.Idx) (z' : S100000x64.Idx), (z' 0).val = r * 5000 + (z 0).val → (z' 1).val = (z 1).val → x0 z = a z')
    (h1 : x1 = b) (hi0 : (i 0).val = r * 5000 + (y 0).val) (hi1 : (i 1).val = (y 1).val) :
    k2_pay1 x0 x1 y = Host.dotGeneral (F := Ideal) (φ₁ := .f32) (φ₂ := .f32) Cert.ReferenceIdeal.dot_S100000x64_S64x2_S100000x2_1_0_0_1_n_n none a b i := by
  rw [pay2_apply, prod2_apply, h1]
  refine Finset.sum_congr rfl fun k _ => ?_
  have el : x0 (dot_S5000x64_S64x2_S5000x2_1_0_0_1_n_n.lhsIdx y k) = a (Cert.ReferenceIdeal.dot_S100000x64_S64x2_S100000x2_1_0_0_1_n_n.lhsIdx i k) :=
    h0 _ _ (by rw [lhs_blk2_0]; exact (lhs_arr2_0 i k).trans hi0) (by rw [lhs_blk2_1]; exact lhs_arr2_1 i k)
  have er : dot_S5000x64_S64x2_S5000x2_1_0_0_1_n_n.rhsIdx y k = Cert.ReferenceIdeal.dot_S100000x64_S64x2_S100000x2_1_0_0_1_n_n.rhsIdx i k := funext fun ax => Fin.ext (by
    match ax with
    | ⟨0, _⟩ => exact (rhs_blk2_0 _ _).trans (rhs_arr2_0 _ _).symm
    | ⟨1, _⟩ => exact ((rhs_blk2_1 _ _).trans hi1.symm).trans (rhs_arr2_1 _ _).symm)
  rw [el, er]

/-- WHAT POINT `t` WRITES BACK is block `t` of the product of the two arrays as the region finds them. -/
theorem flushed2_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S100000x64_S64x2_S100000x2_1_0_0_1_n_n none
          (V c main_v46) (V c main_arg4)) := by
  show (cfg2.win 2).cut (grid2.coords t) ((dat2 V c).after 2 t) = _
  rw [after2_2]
  unfold out2_2
  rw [View.canon_unit_zero zero2]
  simp only [View.ld_unit_zero (S := S5000x64) zero2, View.ld_unit_zero (S := S64x2) zero2]
  obtain ⟨e0, e1, e2, e3, e4, e5⟩ := idx2 t
  funext y
  refine point2 (V c main_v46) (V c main_arg4) (iblk2 V c 0 t) (iblk2 V c 1 t) ((win2 2).xinj (grid2.coords t) y)
    (((cfg2.win 2).blk t).view.emb y) t.val ?_ ?_ ?_ ?_
  · intro z z' h0 h1
    show V c main_v46 (((cfg2.win 0).blk t).view.emb z) = V c main_v46 z'
    refine congrArg _ (funext fun ax => Fin.ext ?_)
    match ax with
    | ⟨0, _⟩ => show win2_0.index t (0 : Fin 2) * 5000 + 1 * (z 0).val = (z' 0).val; omega
    | ⟨1, _⟩ => show win2_0.index t (1 : Fin 2) * 64 + 1 * (z 1).val = (z' 1).val; omega
  · funext z
    show V c main_arg4 (((cfg2.win 1).blk t).view.emb z) = V c main_arg4 z
    refine congrArg _ (funext fun ax => Fin.ext ?_)
    match ax with
    | ⟨0, _⟩ => show win2_1.index t (0 : Fin 2) * 64 + 1 * (z 0).val = (z 0).val; omega
    | ⟨1, _⟩ => show win2_1.index t (1 : Fin 2) * 2 + 1 * (z 1).val = (z 1).val; omega
  · show win2_2.index t (0 : Fin 2) * 5000 + 1 * (y 0).val = t.val * 5000 + (y 0).val; omega
  · show win2_2.index t (1 : Fin 2) * 2 + 1 * (y 1).val = (y 1).val; omega

/-- An index of the result array is in point `t`'s block iff each coordinate is in the block's range on its axis. -/
theorem mem_blk2 (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v47).slice (win2_2.rect t)).set ↔ _
  rw [View.set_slice_whole, Rect.mem_set_unit]
  exact Iff.rfl

/-- The twenty blocks tile the rows: row `r` is in the block of point `r / 5000`. -/
theorem cover2 (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have ht : (i 0).val / 5000 < cfg2.N := by show (i 0).val / 5000 < 20; omega
  refine ⟨⟨(i 0).val / 5000, ht⟩, flush2_2 _, ?_⟩
  obtain ⟨e0, e1, e2, e3, e4, e5⟩ := idx2 ⟨(i 0).val / 5000, ht⟩
  rw [mem_blk2]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; rw [e4]; show (i 0).val / 5000 * 5000 ≤ _ ∧ _ < (i 0).val / 5000 * 5000 + 5000; omega
  | ⟨1, _⟩ => show win2_2.index ⟨(i 0).val / 5000, ht⟩ (1 : Fin 2) * 2 ≤ (i 1).val ∧ (i 1).val < win2_2.index ⟨(i 0).val / 5000, ht⟩ (1 : Fin 2) * 2 + 2; omega

/-- After the third region its result array is the product of the hidden features and the second weights. -/
theorem arr2_eq (c : Dev nD) :
    (dat2 (F := Ideal) V c).arrAt 2 cfg2.N
      = Host.dotGeneral (F := Ideal) (φ₁ := .f32) (φ₂ := .f32) Cert.ReferenceIdeal.dot_S100000x64_S64x2_S100000x2_1_0_0_1_n_n none
          (V c main_v46) (V c main_arg4) :=
  (dat2 V c).arrAt_eq_of_cover 2 _ (fun t _ => flushed2_eq V c t) cover2

end Cert.KernelIdeal.RegionValue

end
-- ==== Proof.RegionFin.lean ====
/-
  The two bias passes' arrays after their regions.

  Each grid point adds the bias row to every row of a block of 5000 rows (and, in the first pass, takes the
  maximum with zero); the block written back is that block of the whole array with the bias added to every row,
  and the twenty blocks tile the rows.
-/
import proofs.«138761_j19645180412674_1_alg».proof.Proof.Gen.KernelIdeal.Frame
import proofs.«138761_j19645180412674_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The zero offsets of a whole-buffer access. -/
theorem zero2 : (![0, 0] : Fin 2 → Nat) = fun _ => 0 := funext fun a => by fin_cases a <;> rfl

/-! ## The second region: the bias row added to every row of a block of 5000 rows × 64, then the maximum with zero -/

/-- The block indices of the second region's three windows at grid point `t`, decided over the twenty points: the row
    blocks move with the point, the bias row is always the whole 1 × 64 array. -/
theorem blockIdx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The second region's arithmetic at an element of the block: the block's element plus the bias row's element of the
    same column, cut off below at zero (the two shape casts are the identity; the broadcast reads row 0 of the bias). -/
theorem pay1_apply (x0 : Vec Ideal S5000x64 .f32) (x1 : Vec Ideal S1x64 .f32) (p : Fin 5000) (q : Fin 64) :
    k1_pay1 x0 x1 (ix2 p q)
      = FloatOps.maximumf (FloatOps.addf (x0 (ix2 p q)) (x1 (ix2 (0 : Fin 1) q))) (FloatOps.ofBits .f32 0x00000000#32) := by
  unfold k1_pay1
  simp only [shapeCast_self]
  show FloatOps.maximumf (FloatOps.addf (x0 (ix2 p q)) (broadcastTo (α := Ideal .f32) S5000x64 x1 broadcasts_S1x64_S5000x64 (ix2 p q))) _ = _
  rw [broadcastTo_apply (α := Ideal .f32) x1 broadcasts_S1x64_S5000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])]
  rfl

/-- What grid point `t` writes back in the second region is block `t` of the whole array with the bias row added to
    every row and the maximum with zero taken. -/
theorem flushed1_eq (c : Dev nD) (t : Fin cfg1.N) :
    (dat1 (F := Ideal) V c).flushed 2 t = ((cfg1.win 2).blk t).view.read (Elt Ideal)
      (maximumf (addf (V c main_v44)
            (broadcastInDim S100000x64 ![0, 1] Cert.ReferenceIdeal.Facts₀.bcast_S1x64_S100000x64_0_1 (V c main_v45)))
          (broadcastInDim S100000x64 ![] bcast_S_S100000x64 (constant (F := Ideal) S_ .f32 0x00000000#32))) := by
  show (cfg1.win 2).cut (grid1.coords t) ((dat1 V c).after 2 t) = _
  rw [after1_2]
  unfold out1_2
  rw [View.canon_unit_zero zero2]
  simp only [View.ld_unit_zero (S := S5000x64) zero2, View.ld_unit_zero (S := S1x64) zero2]
  obtain ⟨e0, e1, e2, e3, e4, e5⟩ := blockIdx1 t
  funext j
  obtain ⟨p, q, rfl⟩ : ∃ (p : Fin 5000) (q : Fin 64), j = ix2 p q := ⟨j 0, j 1, eq_ix2 j⟩
  show k1_pay1 (iblk1 V c 0 t) (iblk1 V c 1 t) (ix2 p q)
    = FloatOps.maximumf (FloatOps.addf (V c main_v44 (((cfg1.win 2).blk t).view.emb (ix2 p q)))
        (broadcastInDim S100000x64 ![0, 1] Cert.ReferenceIdeal.Facts₀.bcast_S1x64_S100000x64_0_1 (V c main_v45) (((cfg1.win 2).blk t).view.emb (ix2 p q))))
      (FloatOps.ofBits .f32 0x00000000#32)
  rw [pay1_apply]
  -- the row block's element sits in the whole array at row 5000 t + p, the same place as the output block's
  have hx : iblk1 V c 0 t (ix2 p q) = V c main_v44 (((cfg1.win 2).blk t).view.emb (ix2 p q)) := by
    show V c main_v44 (((cfg1.win 0).blk t).view.emb (ix2 p q)) = _
    refine congrArg (V c main_v44) ?_
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  -- the broadcast bias at that place is the bias row's element of column q
  have hb : broadcastInDim S100000x64 ![0, 1] Cert.ReferenceIdeal.Facts₀.bcast_S1x64_S100000x64_0_1 (V c main_v45) (((cfg1.win 2).blk t).view.emb (ix2 p q))
      = iblk1 V c 1 t (ix2 (0 : Fin 1) q) := by
    show _ = V c main_v45 (((cfg1.win 1).blk t).view.emb (ix2 (0 : Fin 1) q))
    refine broadcastInDim_apply _ _ _ _ _ (fun a => ?_)
    match a with
    | ⟨0, _⟩ => show win1_1.index t (0 : Fin 2) * 1 + 1 * 0 = if (1 : Nat) = 1 then 0 else _; rw [if_pos rfl]; omega
    | ⟨1, _⟩ => show win1_1.index t (1 : Fin 2) * 64 + 1 * q.val = if (64 : Nat) = 1 then 0 else (win1_2.index t (1 : Fin 2) * 64 + 1 * q.val); rw [if_neg (by decide)]; omega
  rw [hx, hb]

/-- An index of the whole array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- The twenty blocks tile the rows: row `r` is in the block of point `r / 5000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 5000, by show (i 0).val / 5000 < 20; omega⟩
  obtain ⟨e0, e1, e2, e3, e4, e5⟩ := blockIdx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the second region its result array is the aggregated rows plus the bias row, cut off below at zero. -/
theorem arr1_eq (c : Dev nD) :
    (dat1 (F := Ideal) V c).arrAt 2 cfg1.N
      = maximumf (addf (V c main_v44)
            (broadcastInDim S100000x64 ![0, 1] Cert.ReferenceIdeal.Facts₀.bcast_S1x64_S100000x64_0_1 (V c main_v45)))
          (broadcastInDim S100000x64 ![] bcast_S_S100000x64 (constant (F := Ideal) S_ .f32 0x00000000#32)) :=
  (dat1 V c).arrAt_eq_of_cover 2 _ (fun t _ => flushed1_eq V c t) cover1

/-! ## The fourth region: the bias row added to every row of a block of 5000 rows × 2 -/

/-- The block indices of the fourth region's three windows at grid point `t`, decided over the twenty points: the row
    blocks move with the point, the bias row is always the whole 1 × 2 array. -/
theorem blockIdx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The fourth region's arithmetic at an element of the block: the block's element plus the bias row's element of the
    same column (the two shape casts are the identity; the broadcast reads row 0 of the bias). -/
theorem pay3_apply (x0 : Vec Ideal S5000x2 .f32) (x1 : Vec Ideal S1x2 .f32) (p : Fin 5000) (q : Fin 2) :
    k3_pay1 x0 x1 (ix2 p q) = FloatOps.addf (x0 (ix2 p q)) (x1 (ix2 (0 : Fin 1) q)) := by
  unfold k3_pay1
  simp only [shapeCast_self]
  show FloatOps.addf (x0 (ix2 p q)) (broadcastTo (α := Ideal .f32) S5000x2 x1 broadcasts_S1x2_S5000x2 (ix2 p q)) = _
  rw [broadcastTo_apply (α := Ideal .f32) x1 broadcasts_S1x2_S5000x2 (ix2 p q) (ix2 (0 : Fin 1) q) (fun a => match a with
    | ⟨0, _⟩ => by show 0 = if (1 : Nat) = 1 then 0 else _; rw [if_pos rfl]
    | ⟨1, _⟩ => by show q.val = if (2 : Nat) = 1 then 0 else q.val; rw [if_neg (by decide)])]

/-- What grid point `t` writes back in the fourth region is block `t` of the whole array with the bias row added to
    every row. -/
theorem flushed3_eq (c : Dev nD) (t : Fin cfg3.N) :
    (dat3 (F := Ideal) V c).flushed 2 t = ((cfg3.win 2).blk t).view.read (Elt Ideal)
      (addf (F := Ideal) (s := S100000x2) (φ := .f32) (V c main_v60)
          (broadcastInDim S100000x2 ![0, 1] Cert.ReferenceIdeal.Facts₀.bcast_S1x2_S100000x2_0_1 (V c main_v61))) := by
  show (cfg3.win 2).cut (grid3.coords t) ((dat3 V c).after 2 t) = _
  rw [after3_2]
  unfold out3_2
  rw [View.canon_unit_zero zero2]
  simp only [View.ld_unit_zero (S := S5000x2) zero2, View.ld_unit_zero (S := S1x2) zero2]
  obtain ⟨e0, e1, e2, e3, e4, e5⟩ := blockIdx3 t
  funext j
  obtain ⟨p, q, rfl⟩ : ∃ (p : Fin 5000) (q : Fin 2), j = ix2 p q := ⟨j 0, j 1, eq_ix2 j⟩
  show k3_pay1 (iblk3 V c 0 t) (iblk3 V c 1 t) (ix2 p q)
    = FloatOps.addf (V c main_v60 (((cfg3.win 2).blk t).view.emb (ix2 p q)))
        (broadcastInDim S100000x2 ![0, 1] Cert.ReferenceIdeal.Facts₀.bcast_S1x2_S100000x2_0_1 (V c main_v61) (((cfg3.win 2).blk t).view.emb (ix2 p q)))
  rw [pay3_apply]
  -- the row block's element sits in the whole array at row 5000 t + p, the same place as the output block's
  have hx : iblk3 V c 0 t (ix2 p q) = V c main_v60 (((cfg3.win 2).blk t).view.emb (ix2 p q)) := by
    show V c main_v60 (((cfg3.win 0).blk t).view.emb (ix2 p q)) = _
    refine congrArg (V c main_v60) ?_
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 2 + 1 * q.val = win3_2.index t (1 : Fin 2) * 2 + 1 * q.val; omega
  -- the broadcast bias at that place is the bias row's element of column q
  have hb : broadcastInDim S100000x2 ![0, 1] Cert.ReferenceIdeal.Facts₀.bcast_S1x2_S100000x2_0_1 (V c main_v61) (((cfg3.win 2).blk t).view.emb (ix2 p q))
      = iblk3 V c 1 t (ix2 (0 : Fin 1) q) := by
    show _ = V c main_v61 (((cfg3.win 1).blk t).view.emb (ix2 (0 : Fin 1) q))
    refine broadcastInDim_apply _ _ _ _ _ (fun a => ?_)
    match a with
    | ⟨0, _⟩ => show win3_1.index t (0 : Fin 2) * 1 + 1 * 0 = if (1 : Nat) = 1 then 0 else _; rw [if_pos rfl]; omega
    | ⟨1, _⟩ => show win3_1.index t (1 : Fin 2) * 2 + 1 * q.val = if (2 : Nat) = 1 then 0 else (win3_2.index t (1 : Fin 2) * 2 + 1 * q.val); rw [if_neg (by decide)]; omega
  rw [hx, hb]

/-- An index of the whole array is in point `t`'s block iff each coordinate is in the block's range on its axis. -/
theorem mem_blk3 (t : Fin cfg3.N) (i : S100000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v62).slice (win3_2.rect t)).set ↔ _
  rw [View.set_slice_whole, Rect.mem_set_unit]
  exact Iff.rfl

/-- The twenty blocks tile the rows: row `r` is in the block of point `r / 5000`. -/
theorem cover3 (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  let t : Fin cfg3.N := ⟨(i 0).val / 5000, by show (i 0).val / 5000 < 20; omega⟩
  obtain ⟨e0, e1, e2, e3, e4, e5⟩ := blockIdx3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 2 ≤ (i 1).val ∧ (i 1).val < win3_2.index t (1 : Fin 2) * 2 + 2; omega

/-- After the fourth region its result array is the aggregated rows plus the bias row. -/
theorem arr3_eq (c : Dev nD) :
    (dat3 (F := Ideal) V c).arrAt 2 cfg3.N
      = addf (F := Ideal) (s := S100000x2) (φ := .f32) (V c main_v60)
          (broadcastInDim S100000x2 ![0, 1] Cert.ReferenceIdeal.Facts₀.bcast_S1x2_S100000x2_0_1 (V c main_v61)) :=
  (dat3 V c).arrAt_eq_of_cover 2 _ (fun t _ => flushed3_eq V c t) cover3

end Cert.KernelIdeal.RegionValue

end
-- ==== Proof.KernelValue.lean ====
/-
  The kernel's result array as a function of the six arguments.

  The program runs host operations, then the first dense region, host operations, the first bias region, the
  second dense region, host operations and the second bias region. At each boundary the buffers the later steps
  read are named: the extended edge list after the first stretch; the first product after the first region; its
  aggregation after the second stretch; and so on to the result.
-/
import proofs.«138761_j19645180412674_1_alg».proof.Proof.Gen.KernelIdeal.Frame
import proofs.«138761_j19645180412674_1_alg».proof.Proof.Spec
import proofs.«138761_j19645180412674_1_alg».proof.Proof.HostFirst
import proofs.«138761_j19645180412674_1_alg».proof.Proof.RegionMM
import proofs.«138761_j19645180412674_1_alg».proof.Proof.RegionFin
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.GraphConv Cert.KernelIdeal.RegionValue

variable (m : (ℓ : Loc nD τ sig) → Buf (Elt Ideal) ℓ) (ρ : Dev nD → PrngReg)

/-! ## After the first dense region -/

/-- The first product: the node features times the first weights. -/
theorem w2_v31 (c : Dev nD) :
    W2 m ρ c (Proc.devRef .tc main_v31)
      = dense1 (m ((c.tc : Thread nD τ).loc main_arg0)) (m ((c.tc : Thread nD τ).loc main_arg2)) := by
  refine (W2_arr m ρ c 2).trans ((arr0_eq (V1 m ρ) c).trans ?_)
  have e0 : V1 m ρ c main_arg0 = m ((c.tc : Thread nD τ).loc main_arg0) := w1_arg0 m ρ c
  have e2 : V1 m ρ c main_arg2 = m ((c.tc : Thread nD τ).loc main_arg2) := w1_arg2 m ρ c
  rw [e0, e2]; rfl

theorem w2_v28 (c : Dev nD) : W2 m ρ c (Proc.devRef .tc main_v28) = augSrc (m ((c.tc : Thread nD τ).loc main_arg1)) :=
  (W2_of_ne m ρ c main_v28 (by decide)).trans (w1_v28 m ρ c)
theorem w2_v29 (c : Dev nD) : W2 m ρ c (Proc.devRef .tc main_v29) = augDst (m ((c.tc : Thread nD τ).loc main_arg1)) :=
  (W2_of_ne m ρ c main_v29 (by decide)).trans (w1_v29 m ρ c)
theorem w2_v30 (c : Dev nD) : W2 m ρ c (Proc.devRef .tc main_v30) = augWeight (m ((c.tc : Thread nD τ).loc main_arg1)) :=
  (W2_of_ne m ρ c main_v30 (by decide)).trans (w1_v30 m ρ c)
theorem w2_arg3 (c : Dev nD) : W2 m ρ c (Proc.devRef .tc main_arg3) = m ((c.tc : Thread nD τ).loc main_arg3) :=
  (W2_of_ne m ρ c main_arg3 (by decide)).trans (w1_arg3 m ρ c)
theorem w2_arg4 (c : Dev nD) : W2 m ρ c (Proc.devRef .tc main_arg4) = m ((c.tc : Thread nD τ).loc main_arg4) :=
  (W2_of_ne m ρ c main_arg4 (by decide)).trans (w1_arg4 m ρ c)
theorem w2_arg5 (c : Dev nD) : W2 m ρ c (Proc.devRef .tc main_arg5) = m ((c.tc : Thread nD τ).loc main_arg5) :=
  (W2_of_ne m ρ c main_arg5 (by decide)).trans (w1_arg5 m ρ c)

/-! ## After the second stretch of host operations -/

set_option maxHeartbeats 8000000 in
/-- The first layer's aggregation over the extended edge list. -/
theorem w3_v44 (c : Dev nD) :
    W3 m ρ c (Proc.devRef .tc main_v44)
      = aggK64 (dense1 (m ((c.tc : Thread nD τ).loc main_arg0)) (m ((c.tc : Thread nD τ).loc main_arg2)))
          (augSrc (m ((c.tc : Thread nD τ).loc main_arg1))) (augDst (m ((c.tc : Thread nD τ).loc main_arg1)))
          (augWeight (m ((c.tc : Thread nD τ).loc main_arg1))) := by
  have h : W3 m ρ c (Proc.devRef .tc main_v44)
      = aggK64 (W2 m ρ c (Proc.devRef .tc main_v31)) (W2 m ρ c (Proc.devRef .tc main_v28))
          (W2 m ρ c (Proc.devRef .tc main_v29)) (W2 m ρ c (Proc.devRef .tc main_v30)) := by
    show StableHlo.after hostOps1 (W2 m ρ c) (Proc.devRef .tc main_v44) = _
    after_results; rfl
  rw [h, w2_v31, w2_v28, w2_v29, w2_v30]

/-- The first bias as a row. -/
theorem w3_v45 (c : Dev nD) :
    W3 m ρ c (Proc.devRef .tc main_v45) = shapeCast K.S1x64 (m ((c.tc : Thread nD τ).loc main_arg3)) shapeCasts_S64_S1x64 := by
  have h : W3 m ρ c (Proc.devRef .tc main_v45) = shapeCast K.S1x64 (W2 m ρ c (Proc.devRef .tc main_arg3)) shapeCasts_S64_S1x64 := by
    show StableHlo.after hostOps1 (W2 m ρ c) (Proc.devRef .tc main_v45) = _
    after_results; rfl
  rw [h, w2_arg3]

theorem w3_keep (c : Dev nD) (b : Ref sig .tc)
    (hb : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ hb

/-- No operation of the second stretch writes the buffer. -/
local macro "host1_keeps" : tactic => `(tactic| (
  refine List.forall_iff_forall_mem.mp ?_
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem w3_v28 (c : Dev nD) : W3 m ρ c (Proc.devRef .tc main_v28) = augSrc (m ((c.tc : Thread nD τ).loc main_arg1)) :=
  (w3_keep m ρ c main_v28 (by host1_keeps)).trans (w2_v28 m ρ c)
theorem w3_v29 (c : Dev nD) : W3 m ρ c (Proc.devRef .tc main_v29) = augDst (m ((c.tc : Thread nD τ).loc main_arg1)) :=
  (w3_keep m ρ c main_v29 (by host1_keeps)).trans (w2_v29 m ρ c)
theorem w3_v30 (c : Dev nD) : W3 m ρ c (Proc.devRef .tc main_v30) = augWeight (m ((c.tc : Thread nD τ).loc main_arg1)) :=
  (w3_keep m ρ c main_v30 (by host1_keeps)).trans (w2_v30 m ρ c)
theorem w3_arg4 (c : Dev nD) : W3 m ρ c (Proc.devRef .tc main_arg4) = m ((c.tc : Thread nD τ).loc main_arg4) :=
  (w3_keep m ρ c main_arg4 (by host1_keeps)).trans (w2_arg4 m ρ c)
theorem w3_arg5 (c : Dev nD) : W3 m ρ c (Proc.devRef .tc main_arg5) = m ((c.tc : Thread nD τ).loc main_arg5) :=
  (w3_keep m ρ c main_arg5 (by host1_keeps)).trans (w2_arg5 m ρ c)

/-! ## After the first bias region and the second dense region -/

/-- The hidden features: the first layer's aggregation plus the bias row, cut off below at zero. -/
def hidden (x : FVec Ideal K.S100000x128 .f32) (ei : IVec K.S2x3200000 32) (w1 : FVec Ideal K.S128x64 .f32)
    (b1 : FVec Ideal K.S64 .f32) : FVec Ideal K.S100000x64 .f32 :=
  maximumf
    (addf (aggK64 (dense1 x w1) (augSrc ei) (augDst ei) (augWeight ei))
      (broadcastInDim K.S100000x64 ![0, 1] Cert.ReferenceIdeal.Gen.bcast_S1x64_S100000x64_0_1
        (shapeCast K.S1x64 b1 Cert.KernelIdeal.Gen.shapeCasts_S64_S1x64)))
    zeros64

theorem w4_v46 (c : Dev nD) :
    W4 m ρ c (Proc.devRef .tc main_v46)
      = hidden (m ((c.tc : Thread nD τ).loc main_arg0)) (m ((c.tc : Thread nD τ).loc main_arg1))
          (m ((c.tc : Thread nD τ).loc main_arg2)) (m ((c.tc : Thread nD τ).loc main_arg3)) := by
  refine (W4_arr m ρ c 2).trans ((arr1_eq (V3 m ρ) c).trans ?_)
  have e44 : V3 m ρ c main_v44 = _ := w3_v44 m ρ c
  have e45 : V3 m ρ c main_v45 = _ := w3_v45 m ρ c
  rw [e44, e45]; rfl

theorem w4_v28 (c : Dev nD) : W4 m ρ c (Proc.devRef .tc main_v28) = augSrc (m ((c.tc : Thread nD τ).loc main_arg1)) :=
  (W4_of_ne m ρ c main_v28 (by decide)).trans (w3_v28 m ρ c)
theorem w4_v29 (c : Dev nD) : W4 m ρ c (Proc.devRef .tc main_v29) = augDst (m ((c.tc : Thread nD τ).loc main_arg1)) :=
  (W4_of_ne m ρ c main_v29 (by decide)).trans (w3_v29 m ρ c)
theorem w4_v30 (c : Dev nD) : W4 m ρ c (Proc.devRef .tc main_v30) = augWeight (m ((c.tc : Thread nD τ).loc main_arg1)) :=
  (W4_of_ne m ρ c main_v30 (by decide)).trans (w3_v30 m ρ c)
theorem w4_arg4 (c : Dev nD) : W4 m ρ c (Proc.devRef .tc main_arg4) = m ((c.tc : Thread nD τ).loc main_arg4) :=
  (W4_of_ne m ρ c main_arg4 (by decide)).trans (w3_arg4 m ρ c)
theorem w4_arg5 (c : Dev nD) : W4 m ρ c (Proc.devRef .tc main_arg5) = m ((c.tc : Thread nD τ).loc main_arg5) :=
  (W4_of_ne m ρ c main_arg5 (by decide)).trans (w3_arg5 m ρ c)

/-- The second product: the hidden features times the second weights. -/
theorem w5_v47 (c : Dev nD) :
    W5 m ρ c (Proc.devRef .tc main_v47)
      = dense2 (hidden (m ((c.tc : Thread nD τ).loc main_arg0)) (m ((c.tc : Thread nD τ).loc main_arg1))
          (m ((c.tc : Thread nD τ).loc main_arg2)) (m ((c.tc : Thread nD τ).loc main_arg3)))
          (m ((c.tc : Thread nD τ).loc main_arg4)) := by
  refine (W5_arr m ρ c 2).trans ((arr2_eq (V4 m ρ) c).trans ?_)
  have e46 : V4 m ρ c main_v46 = _ := w4_v46 m ρ c
  have e4 : V4 m ρ c main_arg4 = _ := w4_arg4 m ρ c
  rw [e46, e4]; rfl

theorem w5_v28 (c : Dev nD) : W5 m ρ c (Proc.devRef .tc main_v28) = augSrc (m ((c.tc : Thread nD τ).loc main_arg1)) :=
  (W5_of_ne m ρ c main_v28 (by decide)).trans (w4_v28 m ρ c)
theorem w5_v29 (c : Dev nD) : W5 m ρ c (Proc.devRef .tc main_v29) = augDst (m ((c.tc : Thread nD τ).loc main_arg1)) :=
  (W5_of_ne m ρ c main_v29 (by decide)).trans (w4_v29 m ρ c)
theorem w5_v30 (c : Dev nD) : W5 m ρ c (Proc.devRef .tc main_v30) = augWeight (m ((c.tc : Thread nD τ).loc main_arg1)) :=
  (W5_of_ne m ρ c main_v30 (by decide)).trans (w4_v30 m ρ c)
theorem w5_arg5 (c : Dev nD) : W5 m ρ c (Proc.devRef .tc main_arg5) = m ((c.tc : Thread nD τ).loc main_arg5) :=
  (W5_of_ne m ρ c main_arg5 (by decide)).trans (w4_arg5 m ρ c)

/-! ## After the third stretch of host operations, and the result -/

set_option maxHeartbeats 8000000 in
/-- The second layer's aggregation over the extended edge list. -/
theorem w6_v60 (c : Dev nD) :
    W6 m ρ c (Proc.devRef .tc main_v60)
      = aggK2 (dense2 (hidden (m ((c.tc : Thread nD τ).loc main_arg0)) (m ((c.tc : Thread nD τ).loc main_arg1))
            (m ((c.tc : Thread nD τ).loc main_arg2)) (m ((c.tc : Thread nD τ).loc main_arg3)))
            (m ((c.tc : Thread nD τ).loc main_arg4)))
          (augSrc (m ((c.tc : Thread nD τ).loc main_arg1))) (augDst (m ((c.tc : Thread nD τ).loc main_arg1)))
          (augWeight (m ((c.tc : Thread nD τ).loc main_arg1))) := by
  have h : W6 m ρ c (Proc.devRef .tc main_v60)
      = aggK2 (W5 m ρ c (Proc.devRef .tc main_v47)) (W5 m ρ c (Proc.devRef .tc main_v28))
          (W5 m ρ c (Proc.devRef .tc main_v29)) (W5 m ρ c (Proc.devRef .tc main_v30)) := by
    show StableHlo.after hostOps3 (W5 m ρ c) (Proc.devRef .tc main_v60) = _
    after_results; rfl
  rw [h, w5_v47, w5_v28, w5_v29, w5_v30]

/-- The second bias as a row. -/
theorem w6_v61 (c : Dev nD) :
    W6 m ρ c (Proc.devRef .tc main_v61) = shapeCast K.S1x2 (m ((c.tc : Thread nD τ).loc main_arg5)) shapeCasts_S2_S1x2 := by
  have h : W6 m ρ c (Proc.devRef .tc main_v61) = shapeCast K.S1x2 (W5 m ρ c (Proc.devRef .tc main_arg5)) shapeCasts_S2_S1x2 := by
    show StableHlo.after hostOps3 (W5 m ρ c) (Proc.devRef .tc main_v61) = _
    after_results; rfl
  rw [h, w5_arg5]

/-- THE RESULT ARRAY at the last boundary is the kernel's function of the arguments. -/
theorem result_eq (c : Dev nD) :
    W7 m ρ c (Proc.devRef .tc main_v62)
      = kernelOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (W7_arr m ρ c 2).trans ((arr3_eq (V6 m ρ) c).trans ?_)
  have e60 : V6 m ρ c main_v60 = _ := w6_v60 m ρ c
  have e61 : V6 m ρ c main_v61 = _ := w6_v61 m ρ c
  rw [e60, e61]; rfl

end Cert.KernelIdeal.KernelValue

end
-- ==== Proof.RefValue.lean ====
/-
  The reference's result array as the reference's function of the six arguments: the generated run's term, read
  with the names of the graph convolution's parts.
-/
import proofs.«138761_j19645180412674_1_alg».proof.Proof.Spec
import proofs.«138761_j19645180412674_1_alg».proof.Proof.Gen.ReferenceIdeal.Run

set_option maxRecDepth 16384

noncomputable section

namespace Cert.ReferenceIdeal.RefValue

open Idealize.ShloMosaic Idealize.ShloMosaic.TcCoe Idealize.SL.Sem Cert.ReferenceIdeal Cert.GraphConv

set_option maxHeartbeats 4000000 in
/-- The run's term is the reference's function of the arguments. -/
theorem result_eq (m : (ℓ : Loc nD τ sig) → Buf (Elt Ideal) ℓ) (c : Dev nD) :
    Cert.ReferenceIdeal.Value.res_main_v70 (F := Ideal) m c
      = referenceOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v70
  rfl

end Cert.ReferenceIdeal.RefValue

end
-- ==== Proof.Bridge.lean ====
/-
  The kernel's function of the arguments is the reference's.

  Layer by layer: summing over the edge list extended by the self edges is summing over the edges and adding the
  self term; the kernel's self weight, the reciprocal square root of the degree squared, is the reference's one over
  the degree; and a bias vector reshaped to a row is the bias vector broadcast to a row.
-/
import proofs.«138761_j19645180412674_1_alg».proof.Proof.Spec
import Idealize.ShloMosaic.Lib.Pipeline.Value

noncomputable section

namespace Cert.GraphConv

open Idealize.ShloMosaic

/-- A vector reshaped to a one-row table is the vector broadcast along the row. -/
theorem shapeCast_row_eq_broadcast {α : Type} {n : Nat} (b : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ b hc = broadcastInDim ⟨2, ![1, n]⟩ ![1] hb b := by
  funext j
  have e : shapeCast ⟨2, ![1, n]⟩ b hc j = b (fun a => j a.succ) :=
    shapeCast_addUnit_apply (n := 1) ![n] b hc j
  rw [e]
  refine (broadcastInDim_apply (s := ⟨1, ![n]⟩) (t := ⟨2, ![1, n]⟩) ![1] hb b j (fun a => j a.succ) ?_).symm
  intro a
  obtain rfl : a = 0 := Subsingleton.elim _ _
  by_cases h1 : (⟨1, ![n]⟩ : Shape).size 0 = 1
  · rw [if_pos h1]
    have hn : n = 1 := h1
    have hj : (j (1 : Fin 2)).val < n := (j 1).isLt
    show (j (1 : Fin 2)).val = 0
    omega
  · rw [if_neg h1]; rfl

/-- The self weights agree: the reciprocal square root of a node's degree, squared, is one over the degree. -/
theorem selfWeight_eq (ei : IVec K.S2x3200000 32) : selfWeightK ei = selfWeightR ei := by
  unfold selfWeightK selfWeightR invSqrtDeg degree
  exact rsqrt_sq_eq_inv _ _ _ _

/-- The first layer's aggregation over the extended edge list is the sum over the edges plus the self term. -/
theorem agg64_eq (H : FVec Ideal K.S100000x64 .f32) (ei : IVec K.S2x3200000 32) :
    aggK64 H (augSrc ei) (augDst ei) (augWeight ei) = aggR64 H (srcOf ei) (dstOf ei) (edgeWeight ei) (selfWeightK ei) := by
  unfold aggK64 aggR64 augSrc augDst augWeight nodeIds
  exact augmented_layer (C := 64) Cert.KernelIdeal.scatter_S100000x64_S3300000x1_S3300000x64_1_0_0_1 ⟨rfl, rfl, rfl, rfl⟩
    Cert.KernelIdeal.gather_S100000x64_S3300000x1_S3300000x64_1_0_n_n_0_1_164 ⟨rfl, rfl, rfl, rfl, rfl, rfl, rfl⟩
    Cert.ReferenceIdeal.scatter_S100000x64_S3200000x1_S3200000x64_1_0_0_1 ⟨rfl, rfl, rfl, rfl⟩
    Cert.ReferenceIdeal.gather_S100000x64_S3200000x1_S3200000x64_1_0_n_n_0_1_164 ⟨rfl, rfl, rfl, rfl, rfl, rfl, rfl⟩
    _ _ _ _ _ _ _ _ _ _ H (srcOf ei) (dstOf ei) (edgeWeight ei) (selfWeightK ei)

/-- The second layer's aggregation over the extended edge list is the sum over the edges plus the self term. -/
theorem agg2_eq (H : FVec Ideal K.S100000x2 .f32) (ei : IVec K.S2x3200000 32) :
    aggK2 H (augSrc ei) (augDst ei) (augWeight ei) = aggR2 H (srcOf ei) (dstOf ei) (edgeWeight ei) (selfWeightK ei) := by
  unfold aggK2 aggR2 augSrc augDst augWeight nodeIds
  exact augmented_layer (C := 2) Cert.KernelIdeal.scatter_S100000x2_S3300000x1_S3300000x2_1_0_0_1 ⟨rfl, rfl, rfl, rfl⟩
    Cert.KernelIdeal.gather_S100000x2_S3300000x1_S3300000x2_1_0_n_n_0_1_12 ⟨rfl, rfl, rfl, rfl, rfl, rfl, rfl⟩
    Cert.ReferenceIdeal.scatter_S100000x2_S3200000x1_S3200000x2_1_0_0_1 ⟨rfl, rfl, rfl, rfl⟩
    Cert.ReferenceIdeal.gather_S100000x2_S3200000x1_S3200000x2_1_0_n_n_0_1_12 ⟨rfl, rfl, rfl, rfl, rfl, rfl, rfl⟩
    _ _ _ _ _ _ _ _ _ _ H (srcOf ei) (dstOf ei) (edgeWeight ei) (selfWeightK ei)

/-- THE TWO PROGRAMS COMPUTE ONE FUNCTION of the arguments. -/
theorem kernelOut_eq_referenceOut (x : FVec Ideal K.S100000x128 .f32) (ei : IVec K.S2x3200000 32)
    (w1 : FVec Ideal K.S128x64 .f32) (b1 : FVec Ideal K.S64 .f32) (w2 : FVec Ideal K.S64x2 .f32) (b2 : FVec Ideal K.S2 .f32) :
    kernelOut x ei w1 b1 w2 b2 = referenceOut x ei w1 b1 w2 b2 := by
  unfold kernelOut referenceOut
  rw [agg64_eq, agg2_eq, selfWeight_eq,
    shapeCast_row_eq_broadcast b1 _ Cert.ReferenceIdeal.Gen.bcast_S64_S1x64_1,
    shapeCast_row_eq_broadcast b2 _ Cert.ReferenceIdeal.Gen.bcast_S2_S1x2_1]

end Cert.GraphConv

end
-- ==== Proof.lean ====
/-
  A two-layer graph convolution: the kernel's program against its jnp reference, over the extended reals.

  Both programs compute, from node features x, an edge list, and two layers' weights and biases,
      out = conv (relu (conv x W1 b1)) W2 b2,
  where conv h W b multiplies h by W, sums over every node's incoming edges the source's row scaled by the edge's
  weight (the product of the reciprocal square roots of the two ends' degrees), adds the node's own row scaled by
  its self weight, and adds the bias row. The kernel's program does the two dense products and the two bias passes
  in four kernel regions, and folds the self term into the sum by appending one self edge per node to the edge list,
  with self weight the reciprocal square root of the degree squared; the reference adds the self term after the sum,
  with self weight one over the degree. A node's degree is one more than a count, so a positive real, where the two
  self weights agree; a sum over the extended list is the sum over the edges plus the self edges' terms, by the
  associativity and commutativity of addition alone. No finiteness of the inputs is used.

  The three frames: the two kernel programs' are generated whole; the reference's is its generated run with the
  result dropped. The idealization rewrote no operation. The kernel's value is read off the run of its seven
  segments (the result array at the last boundary), each region's array as one whole-array function, each host
  stretch by its operations' terms.
-/
import proofs.«138761_j19645180412674_1_alg».proof.Defs
import proofs.«138761_j19645180412674_1_alg».proof.Proof.Gen.Kernel
import proofs.«138761_j19645180412674_1_alg».proof.Proof.Gen.Kernel.Skeleton
import proofs.«138761_j19645180412674_1_alg».proof.Proof.Gen.Kernel.Launch
import proofs.«138761_j19645180412674_1_alg».proof.Proof.Gen.Kernel.Points
import proofs.«138761_j19645180412674_1_alg».proof.Proof.Gen.Kernel.Frame
import proofs.«138761_j19645180412674_1_alg».proof.Proof.Gen.KernelIdeal
import proofs.«138761_j19645180412674_1_alg».proof.Proof.Gen.KernelIdeal.Skeleton
import proofs.«138761_j19645180412674_1_alg».proof.Proof.Gen.KernelIdeal.Launch
import proofs.«138761_j19645180412674_1_alg».proof.Proof.Gen.KernelIdeal.Points
import proofs.«138761_j19645180412674_1_alg».proof.Proof.Gen.KernelIdeal.Frame
import proofs.«138761_j19645180412674_1_alg».proof.Proof.Gen.ReferenceIdeal
import proofs.«138761_j19645180412674_1_alg».proof.Proof.Gen.ReferenceIdeal.Run
import proofs.«138761_j19645180412674_1_alg».proof.Proof.Gen.Pre_finite_inputs
import proofs.«138761_j19645180412674_1_alg».proof.Proof.RunMain
import proofs.«138761_j19645180412674_1_alg».proof.Proof.KernelValue
import proofs.«138761_j19645180412674_1_alg».proof.Proof.RefValue
import proofs.«138761_j19645180412674_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories agreeing on the arguments, end with the result array at one function of the
    arguments: the kernel's by its run read at the last boundary, the reference's by its generated run, the two
    functions equal layer by layer. -/
theorem algebraic : Cert.algebraic_KernelIdeal_ReferenceIdeal := by
  intro m ρ m' ρ' _ hagree
  refine ⟨fun c => Cert.GraphConv.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq m ρ c), (h c).2⟩)
      (Cert.KernelIdeal.Gen.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]
    exact (Cert.GraphConv.kernelOut_eq_referenceOut _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
